-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x64 : Shape := ⟨2, ![800000, 64]⟩
abbrev S320x128 : Shape := ⟨2, ![320, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S320x128 : S_.BroadcastsInDim S320x128 (![] : Fin 0 → Fin S320x128.rank)
  reducesTo_S320x128_S_d0_1 : S320x128.ReducesTo [0, 1] S_
  bcast_S_S128 : S_.BroadcastsInDim S128 (![] : Fin 0 → Fin S128.rank)
  reducesTo_S128_S_d0 : S128.ReducesTo [0] S_
  bcast_S_S2x800000 : S_.BroadcastsInDim S2x800000 (![] : Fin 0 → Fin S2x800000.rank)
  reducesTo_S2x800000_S_d0_1 : S2x800000.ReducesTo [0, 1] S_

variable [Facts]

def fn_part2 {F : FTy → Type} [FloatOps F] (main_v28 : IVec S_ 1) (main_v33 : IVec S2x800000 1) : IVec S_ 1 :=
  let main_c_12 : IVec S_ 1 := constantI S_ 1 1#1
  let main_v34 : IVec S_ 1 := (fun x v => Host.reduce IntOp.andi x v reducesTo_S2x800000_S_d0_1 h_S_) main_v33 main_c_12
  let main_v35 : IVec S_ 1 := andi main_v28 main_v34
  main_v35

def fn_part1 {F : FTy → Type} [FloatOps F] (main_arg1 : IVec S2x800000 32) (main_arg5 : FVec F S320x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S320x128 .f32 := Host.absf main_arg5
  let main_cst_6 : FVec F S_ .f32 := constant S_ .f32 0x7F800000#32
  let main_v20 : FVec F S320x128 .f32 := broadcastInDim S320x128 ![] bcast_S_S320x128 main_cst_6
  let main_v21 : IVec S320x128 1 := cmpf .olt main_v19 main_v20
  let main_c_7 : IVec S_ 1 := constantI S_ 1 1#1
  let main_v22 : IVec S_ 1 := (fun x v => Host.reduce IntOp.andi x v reducesTo_S320x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S2x800000 32 := broadcastInDim S2x800000 ![] bcast_S_S2x800000 main_c_10
  let main_v30 : IVec S2x800000 1 := cmpi .sge main_arg1 main_v29
  let main_c_11 : IVec S_ 32 := constantI S_ 32 50000#32
  let main_v31 : IVec S2x800000 32 := broadcastInDim S2x800000 ![] bcast_S_S2x800000 main_c_11
  let main_v32 : IVec S2x800000 1 := cmpi .slt main_arg1 main_v31
  let main_v33 : IVec S2x800000 1 := andi main_v30 main_v32
  fn_part2 (F := F) main_v28 main_v33

def fn {F : FTy → Type} [FloatOps F] (main_arg0 : FVec F S50000x128 .f32) (main_arg1 : IVec S2x800000 32) (main_arg2 : FVec F S800000x64 .f32) (main_arg3 : FVec F S320x128 .f32) (main_arg4 : FVec F S128 .f32) (main_arg5 : FVec F S320x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S320x128 .f32 := Host.absf main_arg3
  let main_cst_2 : FVec F S_ .f32 := constant S_ .f32 0x7F800000#32
  let main_v10 : FVec F S320x128 .f32 := broadcastInDim S320x128 ![] bcast_S_S320x128 main_cst_2
  let main_v11 : IVec S320x128 1 := cmpf .olt main_v9 main_v10
  let main_c_3 : IVec S_ 1 := constantI S_ 1 1#1
  let main_v12 : IVec S_ 1 := (fun x v => Host.reduce IntOp.andi x v reducesTo_S320x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_v13 main_v16
-- ==== Kernel.lean ====
abbrev S50000x128 : Shape := ⟨2, ![50000, 128]⟩
abbrev S2x800000 : Shape := ⟨2, ![2, 800000]⟩
abbrev S800000x64 : Shape := ⟨2, ![800000, 64]⟩
abbrev S320x128 : Shape := ⟨2, ![320, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S128x128 : Shape := ⟨2, ![128, 128]⟩
abbrev S64x128 : Shape := ⟨2, ![64, 128]⟩
abbrev S3200x128 : Shape := ⟨2, ![3200, 128]⟩
abbrev S3200x64 : Shape := ⟨2, ![3200, 64]⟩
abbrev S1x128 : Shape := ⟨2, ![1, 128]⟩

abbrev nBuf : Space → Nat
  | .hbm => 72
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x64, .f32⟩
  | .hbm, ⟨3, _⟩ => ⟨S320x128, .f32⟩
  | .hbm, ⟨4, _⟩ => ⟨S128, .f32⟩
  | .hbm, ⟨5, _⟩ => ⟨S320x128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S1, .i32⟩
  | .hbm, ⟨20, _⟩ => ⟨S_, .i32⟩
  | .hbm, ⟨21, _⟩ => ⟨S800000x1, .i32⟩
  | .hbm, ⟨22, _⟩ => ⟨S800000x1, .i1⟩
  | .hbm, ⟨23, _⟩ => ⟨S1x1, .i32⟩
  | .hbm, ⟨24, _⟩ => ⟨S800000x1, .i32⟩
  | .hbm, ⟨25, _⟩ => ⟨S800000x1, .i1⟩
  | .hbm, ⟨26, _⟩ => ⟨S800000x1, .i1⟩
  | .hbm, ⟨27, _⟩ => ⟨S_, .i1⟩
  | .hbm, ⟨28, _⟩ => ⟨S800000, .i1⟩
  | .hbm, ⟨29, _⟩ => ⟨S800000x128, .f32⟩
  | .hbm, ⟨30, _⟩ => ⟨S800000x128, .i1⟩
  | .hbm, ⟨31, _⟩ => ⟨S_, .f32⟩
  | .hbm, ⟨32, _⟩ => ⟨S800000x128, .f32⟩
  | .hbm, ⟨33, _⟩ => ⟨S800000x128, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S1, .i32⟩
  | .hbm, ⟨43, _⟩ => ⟨S_, .i32⟩
  | .hbm, ⟨44, _⟩ => ⟨S800000x1, .i32⟩
  | .hbm, ⟨45, _⟩ => ⟨S800000x1, .i1⟩
  | .hbm, ⟨46, _⟩ => ⟨S1x1, .i32⟩
  | .hbm, ⟨47, _⟩ => ⟨S800000x1, .i32⟩
  | .hbm, ⟨48, _⟩ => ⟨S800000x1, .i1⟩
  | .hbm, ⟨49, _⟩ => ⟨S800000x1, .i1⟩
  | .hbm, ⟨50, _⟩ => ⟨S_, .i1⟩
  | .hbm, ⟨51, _⟩ => ⟨S800000, .i1⟩
  | .hbm, ⟨52, _⟩ => ⟨S800000x128, .f32⟩
  | .hbm, ⟨53, _⟩ => ⟨S800000x128, .i1⟩
  | .hbm, ⟨54, _⟩ => ⟨S_, .f32⟩
  | .hbm, ⟨55, _⟩ => ⟨S800000x128, .f32⟩
  | .hbm, ⟨56, _⟩ => ⟨S800000x128, .f32⟩
  | .hbm, ⟨57, _⟩ => ⟨S128x128, .f32⟩
  | .hbm, ⟨58, _⟩ => ⟨S128x128, .f32⟩
  | .hbm, ⟨59, _⟩ => ⟨S64x128, .f32⟩
  | .hbm, ⟨60, _⟩ => ⟨S128x128, .f32⟩
  | .hbm, ⟨61, _⟩ => ⟨S128x128, .f32⟩
  | .hbm, ⟨62, _⟩ => ⟨S64x128, .f32⟩
  | .hbm, ⟨63, _⟩ => ⟨S800000x128, .f32⟩
  | .hbm, ⟨64, _⟩ => ⟨S_, .f32⟩
  | .hbm, ⟨65, _⟩ => ⟨S50000x128, .f32⟩
  | .hbm, ⟨66, _⟩ => ⟨S800000x1, .i32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .local _ .vmem, ⟨0, _⟩ => ⟨S3200x128, .f32⟩
  | .local _ .vmem, ⟨1, _⟩ => ⟨S3200x128, .f32⟩
  | .local _ .vmem, ⟨2, _⟩ => ⟨S3200x128, .f32⟩
  | .local _ .vmem, ⟨3, _⟩ => ⟨S3200x128, .f32⟩
  | .local _ .vmem, ⟨4, _⟩ => ⟨S3200x64, .f32⟩
  | .local _ .vmem, ⟨5, _⟩ => ⟨S3200x64, .f32⟩
  | .local _ .vmem, ⟨6, _⟩ => ⟨S128x128, .f32⟩
  | .local _ .vmem, ⟨7, _⟩ => ⟨S128x128, .f32⟩
  | .local _ .vmem, ⟨8, _⟩ => ⟨S64x128, .f32⟩
  | .local _ .vmem, ⟨9, _⟩ => ⟨S128, .f32⟩
  | .local _ .vmem, ⟨10, _⟩ => ⟨S128x128, .f32⟩
  | .local _ .vmem, ⟨11, _⟩ => ⟨S128x128, .f32⟩
  | .local _ .vmem, ⟨12, _⟩ => ⟨S64x128, .f32⟩
  | .local _ .vmem, ⟨13, _⟩ => ⟨S128, .f32⟩
  | .local _ .vmem, ⟨14, _⟩ => ⟨S3200x128, .f32⟩
  | .local _ .vmem, ⟨15, _⟩ => ⟨S3200x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v4 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_cst : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_call2_cst : Ref sig .tc := ⟨.hbm, 69, rfl⟩
abbrev main_call2_v0 : Ref sig .tc := ⟨.hbm, 70, rfl⟩
abbrev main_v17 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S3200x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  slices_S320x128_S128x128_0_0 : S320x128.Slices ![0, 0] S128x128
  slices_S320x128_S128x128_128_0 : S320x128.Slices ![128, 0] S128x128
  slices_S320x128_S64x128_256_0 : S320x128.Slices ![256, 0] S64x128
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  bitsLt_bf16_f32 : FTy.bits .bf16 < FTy.bits .f32
  inb_S3200x64_S3200x64_0_0 : ∀ a, (![0, 0] : Fin 2 → Nat) a + S3200x64.size a ≤ S3200x64.size a
  h_S3200x64 : 0 < S3200x64.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S3200x128 : S1x128.Broadcasts S3200x128
  bcast_S_S50000x128 : S_.BroadcastsInDim S50000x128 (![] : Fin 0 → Fin S50000x128.rank)
  gather_S50000x128_S800000x1_S800000x128_1_0_n_n_0_1_1128_wf : GatherDims.WF S50000x128 S800000x1 S800000x128 [1] [0] [] [0] [] 1 ![1, 128]
  dot_S3200x128_S128x128_S3200x128_1_0_0_1_n_n_wf : DotDims.WF S3200x128 S128x128 S3200x128 [1] [0] [0] [1] [] []
  dot_S3200x64_S64x128_S3200x128_1_0_0_1_n_n_wf : DotDims.WF S3200x64 S64x128 S3200x128 [1] [0] [0] [1] [] []
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S800000x128.size a
  hwx0_0 : ∀ i : grid0.Coords, EltTy.bits .f32 = 32 ∨ (Rect.block (s := S800000x128) S3200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S800000x128.size a
  hwx0_1 : ∀ i : grid0.Coords, EltTy.bits .f32 = 32 ∨ (Rect.block (s := S800000x128) S3200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x64.size a ≤ S800000x64.size a
  hwx0_2 : ∀ i : grid0.Coords, EltTy.bits .f32 = 32 ∨ (Rect.block (s := S800000x64) S3200x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x128.size a ≤ S64x128.size a
  hwx0_9 : ∀ i : grid0.Coords, EltTy.bits .f32 = 32 ∨ (Rect.block (s := S64x128) S64x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S3200x128.size a ≤ S800000x128.size a
  hwx0_11 : ∀ i : grid0.Coords, EltTy.bits .f32 = 32 ∨ (Rect.block (s := S800000x128) S3200x128.size (cc0_transform_11 i) (hinb0_11 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def dot_S3200x64_S64x128_S3200x128_1_0_0_1_n_n : DotDims S3200x64 S64x128 S3200x128 where
  lhsContracting := [1]
  rhsContracting := [0]
  lhsNonContracting := [0]
  rhsNonContracting := [1]
  lhsBatch := []
  rhsBatch := []
  wf := dot_S3200x64_S64x128_S3200x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_v4) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3200x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S64x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg6) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S3200x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x64 : Shape := ⟨2, ![800000, 64]⟩
abbrev S320x128 : Shape := ⟨2, ![320, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x320 : Shape := ⟨2, ![800000, 320]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x64, .f32⟩
  | .hbm, ⟨3, _⟩ => ⟨S320x128, .f32⟩
  | .hbm, ⟨4, _⟩ => ⟨S128, .f32⟩
  | .hbm, ⟨5, _⟩ => ⟨S320x128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S800000x320, .f32⟩
  | .hbm, ⟨30, _⟩ => ⟨S800000x128, .f32⟩
  | .hbm, ⟨31, _⟩ => ⟨S1x128, .f32⟩
  | .hbm, ⟨32, _⟩ => ⟨S800000x128, .f32⟩
  | .hbm, ⟨33, _⟩ => ⟨S800000x128, .f32⟩
  | .hbm, ⟨34, _⟩ => ⟨S800000x128, .f32⟩
  | .hbm, ⟨35, _⟩ => ⟨S800000x128, .f32⟩
  | .hbm, ⟨36, _⟩ => ⟨S_, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S800000x128, .f32⟩
  | .hbm, ⟨41, _⟩ => ⟨S800000x128, .f32⟩
  | .hbm, ⟨42, _⟩ => ⟨S800000x128, .f32⟩
  | .hbm, ⟨43, _⟩ => ⟨S1x128, .f32⟩
  | .hbm, ⟨44, _⟩ => ⟨S800000x128, .f32⟩
  | .hbm, ⟨45, _⟩ => ⟨S800000x128, .f32⟩
  | .hbm, ⟨46, _⟩ => ⟨S_, .f32⟩
  | .hbm, ⟨47, _⟩ => ⟨S800000x128, .f32⟩
  | .hbm, ⟨48, _⟩ => ⟨S800000x128, .f32⟩
  | .hbm, ⟨49, _⟩ => ⟨S800000x128, .f32⟩
  | .hbm, ⟨50, _⟩ => ⟨S800000x128, .f32⟩
  | .hbm, ⟨51, _⟩ => ⟨S800000x128, .i1⟩
  | .hbm, ⟨52, _⟩ => ⟨S800000x128, .f32⟩
  | .hbm, ⟨53, _⟩ => ⟨S800000x128, .f32⟩
  | .hbm, ⟨54, _⟩ => ⟨S800000x128, .f32⟩
  | .hbm, ⟨55, _⟩ => ⟨S800000x128, .f32⟩
  | .hbm, ⟨56, _⟩ => ⟨S800000x128, .f32⟩
  | .hbm, ⟨57, _⟩ => ⟨S800000x128, .f32⟩
  | .hbm, ⟨58, _⟩ => ⟨S800000x128, .f32⟩
  | .hbm, ⟨59, _⟩ => ⟨S800000x128, .f32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_v33 : Ref sig .tc := ⟨.hbm, 59, rfl⟩
abbrev main_v34 : Ref sig .tc := ⟨.hbm, 60, rfl⟩
abbrev main_cst_4 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_call1_cst : Ref sig .tc := ⟨.hbm, 66, rfl⟩
abbrev main_call1_v0 : Ref sig .tc := ⟨.hbm, 67, rfl⟩
abbrev main_v39 : Ref sig .tc := ⟨.hbm, 68, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x64_S800000x320_d1 : Shape.Concatenates [S800000x128, S800000x128, S800000x64] S800000x320 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  gather_S50000x128_S800000x1_S800000x128_1_0_n_n_0_1_1128_wf : GatherDims.WF S50000x128 S800000x1 S800000x128 [1] [0] [] [0] [] 1 ![1, 128]
  dot_S800000x320_S320x128_S800000x128_1_0_0_1_n_n_wf : DotDims.WF S800000x320 S320x128 S800000x128 [1] [0] [0] [1] [] []
  scatter_S50000x128_S800000x1_S800000x128_1_0_0_1_wf : ScatterDims.WF S50000x128 S800000x1 S800000x128 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x320_S320x128_S800000x128_1_0_0_1_n_n : DotDims S800000x320 S320x128 S800000x128 where
  lhsContracting := [1]
  rhsContracting := [0]
  lhsNonContracting := [0]
  rhsNonContracting := [1]
  lhsBatch := []
  rhsBatch := []
  wf := dot_S800000x320_S320x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.LibIndexWrap.lean ====
/-
  GENERAL LEMMA. INDEX WORDS: numpy's wrap of a negative index, and the arrays that carry index words to a gather or a
  scatter, read at a position.

  An index into an axis of extent N is read the numpy way: a negative index counts from the end, so the word v becomes
  v + N where v < 0 (signed) and stays v otherwise. jnp prints this as a select over a signed compare with 0 and an add
  of the extent, elementwise (wrapped_apply). For a word whose signed value lies in [-N, N) the wrapped word's signed
  value lies in [0, N): a position on the axis (wrapWord_range; N below 2^31).

  The wrapped words then travel as a column [n, 1] (a gather's or a scatter's start indices: column_apply) or, two
  columns side by side, as the [n, 2] array of index pairs of a pair scatter (pair_fst, pair_snd). A vector laid along
  the second axis of a [B, n] rectangle through a [1, n] row (v[None, :] against a [B, n] array) reads, at (p, e), the
  vector at e (row_bcast_apply).

  Last, a set bit of a signed compare against a constant, decoded to the signed values (sge_decode, slt_decode): what an
  index-range conjunct of a precondition gives at one entry.
-/
import Idealize.ShloMosaic.PureOps.Ideal
import Idealize.ShloMosaic.Lib.ValueIdx
import Idealize.ShloMosaic.Lib.Pipeline.Value
import Idealize.ShloMosaic.Lib.StableHlo.Predicate

noncomputable section

namespace Idealize.ShloMosaic.IndexWrap

open Idealize.ShloMosaic Idealize.ShloMosaic.ValueIdx

/-- An index word into an axis whose extent is the word N, negative indices counted from the end. -/
def wrapWord (N v : BitVec 32) : BitVec 32 := if v.slt 0#32 then v + N else v

/-- A word inside numpy's index range [-N, N) wraps to a position in [0, N). -/
theorem wrapWord_range (N v : BitVec 32) (hN : N.toNat < 2 ^ 31)
    (h : -(N.toNat : ℤ) ≤ v.toInt ∧ v.toInt < (N.toNat : ℤ)) :
    0 ≤ (wrapWord N v).toInt ∧ (wrapWord N v).toInt < (N.toNat : ℤ) := by
  unfold wrapWord
  by_cases hn : v.slt 0#32
  · rw [if_pos hn]
    have hneg : v.toInt < 0 := by simpa [BitVec.slt] using hn
    have e1 := BitVec.toInt_eq_toNat_cond v
    have e2 := BitVec.toInt_eq_toNat_cond (v + N)
    have e3 : (v + N).toNat = (v.toNat + N.toNat) % 2 ^ 32 := by simp [BitVec.toNat_add]
    have hv := v.isLt
    split_ifs at e1 e2 <;> omega
  · rw [if_neg hn]
    have hneg : ¬ v.toInt < 0 := by simpa [BitVec.slt] using hn
    omega

/-- The printed wrap, read at a position: the select of the add of the extent where the word is below 0. -/
theorem wrapped_apply {S : Shape} (h : (⟨0, ![]⟩ : Shape).BroadcastsInDim S ![]) (N : BitVec 32) (v : IVec S 32)
    (i : S.Idx) :
    select (cmpi .slt v (broadcastInDim S ![] h (constantI ⟨0, ![]⟩ 32 0#32)))
      (addi v (broadcastInDim S ![] h (constantI ⟨0, ![]⟩ 32 N))) v i = wrapWord N (v i) := by
  show Scalar.select (IntOp.cmpi .slt (v i) 0#32) (IntOp.addi (v i) N) (v i) = _
  unfold Scalar.select IntOp.cmpi IntOp.addi wrapWord
  cases hs : (v i).slt 0#32 <;> simp

/-- A vector kept as an [n, 1] column reads, at row e, the vector at e. -/
theorem column_apply {α : Type} {n : Nat} (hb : (⟨1, ![n]⟩ : Shape).BroadcastsInDim ⟨2, ![n, 1]⟩ ![0])
    (v : (⟨1, ![n]⟩ : Shape).Idx → α) (e : Fin n) :
    broadcastInDim ⟨2, ![n, 1]⟩ ![0] hb v (ix2 e (0 : Fin 1)) = v (ix1 e) := by
  refine broadcastInDim_apply _ hb v _ (ix1 e) fun a => ?_
  match a with
  | ⟨0, _⟩ =>
    show e.val = if n = 1 then 0 else e.val
    have := e.isLt
    split_ifs <;> omega

/-- A vector laid along the second axis of a [B, n] rectangle (through a [1, n] row) reads, at (p, e), the vector at e. -/
theorem row_bcast_apply {α : Type} {B n : Nat} (h₁ : (⟨1, ![n]⟩ : Shape).BroadcastsInDim ⟨2, ![1, n]⟩ ![1])
    (h₂ : (⟨2, ![1, n]⟩ : Shape).BroadcastsInDim ⟨2, ![B, n]⟩ ![0, 1]) (v : (⟨1, ![n]⟩ : Shape).Idx → α)
    (p : Fin B) (e : Fin n) :
    broadcastInDim ⟨2, ![B, n]⟩ ![0, 1] h₂ (broadcastInDim ⟨2, ![1, n]⟩ ![1] h₁ v) (ix2 p e) = v (ix1 e) := by
  refine (broadcastInDim_apply _ h₂ _ _ (ix2 (0 : Fin 1) e) fun a => ?_).trans
    (broadcastInDim_apply _ h₁ v _ (ix1 e) fun a => ?_)
  · match a with
    | ⟨0, _⟩ => rfl
    | ⟨1, _⟩ =>
      show e.val = if n = 1 then 0 else e.val
      have := e.isLt
      split_ifs <;> omega
  · match a with
    | ⟨0, _⟩ =>
      show e.val = if n = 1 then 0 else e.val
      have := e.isLt
      split_ifs <;> omega

/-- Two [n, 1] columns side by side: position (e, 0) of the [n, 2] array is the first column's row e. -/
theorem pair_fst {α : Type} {n : Nat} (x₁ x₂ : (⟨2, ![n, 1]⟩ : Shape).Idx → α)
    (h : Shape.Concatenates [(⟨2, ![n, 1]⟩ : Shape), ⟨2, ![n, 1]⟩] ⟨2, ![n, 2]⟩ 1) (e : Fin n) :
    concatenate ⟨2, ![n, 2]⟩ 1 [⟨⟨2, ![n, 1]⟩, x₁⟩, ⟨⟨2, ![n, 1]⟩, x₂⟩] h (ix2 e (0 : Fin 2)) = x₁ (ix2 e (0 : Fin 1)) := by
  refine concatenate_pair_apply_left 1 x₁ x₂ h _ rfl _ fun b => ?_
  match b with
  | ⟨0, _⟩ => rfl
  | ⟨1, _⟩ => rfl

/-- Position (e, 1) of the [n, 2] array is the second column's row e. -/
theorem pair_snd {α : Type} {n : Nat} (x₁ x₂ : (⟨2, ![n, 1]⟩ : Shape).Idx → α)
    (h : Shape.Concatenates [(⟨2, ![n, 1]⟩ : Shape), ⟨2, ![n, 1]⟩] ⟨2, ![n, 2]⟩ 1) (e : Fin n) :
    concatenate ⟨2, ![n, 2]⟩ 1 [⟨⟨2, ![n, 1]⟩, x₁⟩, ⟨⟨2, ![n, 1]⟩, x₂⟩] h (ix2 e (1 : Fin 2)) = x₂ (ix2 e (0 : Fin 1)) := by
  refine concatenate_pair_apply_right 1 x₁ x₂ h _ rfl rfl _ (fun b hb => ?_) rfl
  match b with
  | ⟨0, _⟩ => rfl
  | ⟨1, _⟩ => exact absurd rfl hb

/-- A set bit of the signed compare "v >= k". -/
theorem sge_decode (v k : BitVec 32) (h : IntOp.cmpi .sge v k = 1#1) : k.toInt ≤ v.toInt := by
  unfold IntOp.cmpi at h
  have h' := (StableHlo.Predicate.ofBool_eq_one_iff _).mp h
  simpa [BitVec.sle] using h'

/-- A set bit of the signed compare "v < k". -/
theorem slt_decode (v k : BitVec 32) (h : IntOp.cmpi .slt v k = 1#1) : v.toInt < k.toInt := by
  unfold IntOp.cmpi at h
  have h' := (StableHlo.Predicate.ofBool_eq_one_iff _).mp h
  simpa [BitVec.slt] using h'

end Idealize.ShloMosaic.IndexWrap

end
-- ==== Proof.IndexRange.lean ====
/-
  THE INDEX RANGE, read out of the precondition.

  The precondition is one bit: the conjunction of "every float input is finite" with "every word of the edge index
  array lies in [0, 50000)", the latter printed as a reduction by `and` over the elementwise conjunction of two signed
  compares against the constants 0 and 50000. When the bit is set, every entry of that elementwise mask is set, and a
  set compare bit says what it compares: as signed integers, 0 <= idx(i) and idx(i) < 50000, at every position i of the
  [2, 800000] array. Nothing about the float inputs is used.
-/
import proofs.«411276_j4767413698834_1_alg».proof.Pre_finite_inputs
import proofs.«411276_j4767413698834_1_alg».proof.Proof.LibIndexWrap
import Idealize.ShloMosaic.Lib.ReduceAll
import Idealize.ShloMosaic.Lib.ValueIdx

noncomputable section

namespace Cert.IndexRange

open Idealize.ShloMosaic Idealize.ShloMosaic.ValueIdx Cert.Pre_finite_inputs

variable [Facts]

instance : Subsingleton S_.Idx := ⟨fun a b => funext fun d => d.elim0⟩

/-- Under the precondition every edge index word is a node number: 0 <= idx(i) < 50000 as signed integers. -/
theorem in_range {F : FTy → Type} [FloatOps F] (a0 : FVec F S50000x128 .f32) (idx : IVec S2x800000 32)
    (a2 : FVec F S800000x64 .f32) (a3 : FVec F S320x128 .f32) (a4 : FVec F S128 .f32) (a5 : FVec F S320x128 .f32)
    (a6 : FVec F S128 .f32) (h : fn (F := F) a0 idx a2 a3 a4 a5 a6 = fun _ => 1#1) (i : S2x800000.Idx) :
    0 ≤ (idx i).toInt ∧ (idx i).toInt < 50000 := by
  have e := congrFun h ix0
  unfold fn fn_part1 fn_part2 at e
  dsimp only at e
  -- the last conjunct of the bit is the reduction of the range mask
  have e2 := (IntOp.andi_eq_one.mp e).2
  have hall := Host.reduce_andi_all _ _ _ _ _ e2 i
  -- the mask at i is the conjunction of the two compares at i
  obtain ⟨hge, hlt⟩ := IntOp.andi_eq_one.mp hall
  have h0 : (0#32 : BitVec 32).toInt = 0 := by decide
  have hN : (50000#32 : BitVec 32).toInt = 50000 := by decide
  refine ⟨?_, ?_⟩
  · have := IndexWrap.sge_decode (idx i) 0#32 hge
    rwa [h0] at this
  · have := IndexWrap.slt_decode (idx i) 50000#32 hlt
    rwa [hN] at this

end Cert.IndexRange

end
-- ==== Proof.Message.lean ====
/-
  ONE EDGE'S MESSAGE, as a function of the gathered node rows, the edge's own features and the two dense layers.

  For edge e and output column j the gate is  sigmoid(zf) * softplus(zs),  where each of zf, zs is a dense layer applied
  to the concatenated row [x_dst(e), x_src(e), edge_attr(e)] of 128 + 128 + 64 = 320 features:
      z = sum over k < 320 of row(k) * W(k, j) + b(j).
  One program forms the 320-term sum at once; the other multiplies the three feature groups by the matching row blocks
  of W (rows 0..127, 128..255, 256..319) and adds the three partial sums. Addition of extended reals is commutative and
  associative, so the two agree with no finiteness assumption (`sum_split`).

  `lin3` is the three-group form, `gate` the product of the logistic function and softplus as both programs spell
  softplus:  max(z, 0) + log(1 + exp(-|z - 0|)).
-/
import Idealize.ShloMosaic.PureOps.Ideal.Laws
import Idealize.ShloMosaic.Lib.ValueIdx
import Mathlib.Algebra.BigOperators.Fin

noncomputable section

namespace Cert.EdgeMessage

open Idealize.ShloMosaic Idealize.ShloMosaic.ValueIdx

/-- softplus, spelled as max(z, 0) + log(1 + exp(-|z - 0|)), the absolute value as max(d, -d). -/
def softplus (z : EReal) : EReal := max z 0 + Ideal.log1p (Ideal.exp (-(max (z - 0) (-(z - 0)))))

/-- The gate of one message entry: logistic of the first layer's output times softplus of the second's. -/
def gate (a b : EReal) : EReal := Ideal.logistic a * softplus b

/-- A dense layer over the three feature groups of edge e, column j: the groups meet rows 0.., 128.., 256.. of W. -/
def lin3 {E : Nat} (xd xs : (⟨2, ![E, 128]⟩ : Shape).Idx → EReal) (ea : (⟨2, ![E, 64]⟩ : Shape).Idx → EReal)
    (W : (⟨2, ![320, 128]⟩ : Shape).Idx → EReal) (b : (⟨1, ![128]⟩ : Shape).Idx → EReal) (e : Fin E) (j : Fin 128) : EReal :=
  ((∑ k : Fin 128, xd (ix2 e k) * W (ix2 (⟨k.val, by omega⟩ : Fin 320) j)
      + ∑ k : Fin 128, xs (ix2 e k) * W (ix2 (⟨128 + k.val, by omega⟩ : Fin 320) j))
    + ∑ k : Fin 64, ea (ix2 e k) * W (ix2 (⟨256 + k.val, by omega⟩ : Fin 320) j)) + b (ix1 j)

/-- A sum over 320 terms is the sum of its first 128, its next 128 and its last 64 terms. -/
theorem sum_split (f : Fin 320 → EReal) :
    ∑ k : Fin 320, f k
      = (∑ k : Fin 128, f ⟨k.val, by omega⟩ + ∑ k : Fin 128, f ⟨128 + k.val, by omega⟩)
        + ∑ k : Fin 64, f ⟨256 + k.val, by omega⟩ := by
  have h1 := Fin.sum_univ_add (M := EReal) (a := 256) (b := 64) f
  have h2 := Fin.sum_univ_add (M := EReal) (a := 128) (b := 128) (fun i => f (Fin.castAdd 64 i))
  rw [h1, h2]
  rfl

/-- The word 0x3F800000 is the number 1. -/
theorem ofBits_one : Ideal.ofBits .f32 0x3F800000#32 = 1 := by
  simp [Ideal.ofBits, Ideal.ieee, -EReal.coe_mul]; norm_num

/-- No extended real differs from itself: the "ordered and unequal" test of a value against itself is the zero bit … -/
theorem cmp_one_self (v : EReal) : Ideal.cmp .one v v = 0#1 := by simp [Ideal.cmp]

/-- … and so is the "unordered or unequal" test, the one that asks for a NaN. -/
theorem cmp_une_self (v : EReal) : Ideal.cmp .une v v = 0#1 := by simp [Ideal.cmp]

end Cert.EdgeMessage

end
-- ==== Proof.BlockIndex.lean ====
/-
  THE GRID OF THE KERNEL'S REGION: 250 points, point t staging rows 3200 t .. 3200 t + 3199 of the three per-edge arrays
  and of the output, and the six weight blocks and the two biases whole. The index maps, decided over the grid; the dense
  layer over whole arrays (`linK`) and the message array the region writes, as one function of the staged arrays (`msgK`).
-/
import proofs.«411276_j4767413698834_1_alg».proof.Proof.Gen.KernelIdeal.Frame
import proofs.«411276_j4767413698834_1_alg».proof.Proof.Message
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.SL.Sem
open Idealize.ShloMosaic.ValueIdx Cert.EdgeMessage
open Idealize.ShloMosaic.Pipeline (Dat)

/-- A dense layer over whole arrays, for edge e and column j: the three feature groups against their weight blocks,
    added target, source, edge, then the bias. -/
def linK (A0 A1 : S800000x128.Idx → EReal) (A2 : S800000x64.Idx → EReal) (B0 B1 : S128x128.Idx → EReal)
    (B2 : S64x128.Idx → EReal) (b : S128.Idx → EReal) (e : Fin 800000) (j : Fin 128) : EReal :=
  ((∑ k : Fin 128, A0 (ix2 e k) * B0 (ix2 k j) + ∑ k : Fin 128, A1 (ix2 e k) * B1 (ix2 k j))
    + ∑ k : Fin 64, A2 (ix2 e k) * B2 (ix2 k j)) + b (ix1 j)

variable (m : (ℓ : Loc nD τ sig) → Buf (Elt Ideal) ℓ)

/-- The message array as one function of the arrays the region finds. -/
def msgK (c : Dev nD) : S800000x128.Idx → EReal := fun i =>
  gate (linK (V m c main_v4) (V m c main_v5) (V m c main_arg2) (V m c main_v6) (V m c main_v7) (V m c main_v8)
          (V m c main_arg4) (i 0) (i 1))
    (linK (V m c main_v4) (V m c main_v5) (V m c main_arg2) (V m c main_v9) (V m c main_v10) (V m c main_v11)
          (V m c main_arg6) (i 0) (i 1))

/-! ## The index maps, decided over the grid -/

theorem idx_edges : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_11.index t (0 : Fin 2) = t.val ∧ win0_11.index t (1 : Fin 2) = 0 :=
  (by decide +kernel : ∀ t : Fin grid0.N, _)

theorem idx_first : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0 :=
  (by decide +kernel : ∀ t : Fin grid0.N, _)

theorem idx_second : ∀ t : Fin cfg0.N,
    win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 1) = 0 :=
  (by decide +kernel : ∀ t : Fin grid0.N, _)

/-- The edge that row p of point t's block is. -/
def edgeOf (t : Fin cfg0.N) (p : Fin 3200) : Fin 800000 :=
  ⟨t.val * 3200 + p.val, by have := t.isLt; have h : cfg0.N = 250 := N_0; have := p.isLt; omega⟩

end Cert.KernelIdeal.Blocks

end
-- ==== Proof.BlockReads.lean ====
/-
  A WINDOW'S BLOCK, read at an entry, for ANY contents X of the window's array: entry (p, k) of point t's block of a
  per-edge array is X at (3200 t + p, k); a weight block's or a bias's entry is X's own, at every point; and entry
  (p, q) of the output block sits at (3200 t + p, q) of the output array. Each is the block's coordinate, index times
  size plus the coordinate inside the block, with the decided index map.
-/
import proofs.«411276_j4767413698834_1_alg».proof.Proof.BlockIndex

set_option maxRecDepth 16384

noncomputable section

namespace Cert.KernelIdeal.Blocks

open Cert.KernelIdeal Cert.KernelIdeal.Gen
open Idealize.ShloMosaic Idealize.ShloMosaic.TcCoe Idealize.SL.Sem
open Idealize.ShloMosaic.ValueIdx Cert.EdgeMessage
open Idealize.ShloMosaic.Pipeline (Dat)

/-! ## The per-edge windows -/

theorem read0 (X : S800000x128.Idx → EReal) (t : Fin cfg0.N) (p : Fin 3200) (k : Fin 128) :
    ((cfg0.win 0).blk t).view.read (Elt Ideal) X (ix2 p k) = X (ix2 (edgeOf t p) k) := by
  show X (((cfg0.win 0).blk t).view.emb (ix2 p k)) = _
  refine congrArg X (funext fun a => Fin.ext ?_)
  obtain ⟨e0, e1, -⟩ := idx_edges t
  match a with
  | ⟨0, _⟩ => show win0_0.index t (0 : Fin 2) * 3200 + 1 * p.val = t.val * 3200 + p.val; rw [e0]; omega
  | ⟨1, _⟩ => show win0_0.index t (1 : Fin 2) * 128 + 1 * k.val = k.val; rw [e1]; omega

theorem read1 (X : S800000x128.Idx → EReal) (t : Fin cfg0.N) (p : Fin 3200) (k : Fin 128) :
    ((cfg0.win 1).blk t).view.read (Elt Ideal) X (ix2 p k) = X (ix2 (edgeOf t p) k) := by
  show X (((cfg0.win 1).blk t).view.emb (ix2 p k)) = _
  refine congrArg X (funext fun a => Fin.ext ?_)
  obtain ⟨-, -, e0, e1, -⟩ := idx_edges t
  match a with
  | ⟨0, _⟩ => show win0_1.index t (0 : Fin 2) * 3200 + 1 * p.val = t.val * 3200 + p.val; rw [e0]; omega
  | ⟨1, _⟩ => show win0_1.index t (1 : Fin 2) * 128 + 1 * k.val = k.val; rw [e1]; omega

theorem read2 (X : S800000x64.Idx → EReal) (t : Fin cfg0.N) (p : Fin 3200) (k : Fin 64) :
    ((cfg0.win 2).blk t).view.read (Elt Ideal) X (ix2 p k) = X (ix2 (edgeOf t p) k) := by
  show X (((cfg0.win 2).blk t).view.emb (ix2 p k)) = _
  refine congrArg X (funext fun a => Fin.ext ?_)
  obtain ⟨-, -, -, -, e0, e1, -⟩ := idx_edges t
  match a with
  | ⟨0, _⟩ => show win0_2.index t (0 : Fin 2) * 3200 + 1 * p.val = t.val * 3200 + p.val; rw [e0]; omega
  | ⟨1, _⟩ => show win0_2.index t (1 : Fin 2) * 64 + 1 * k.val = k.val; rw [e1]; omega

/-! ## The weight blocks and the biases: staged whole at every point -/

theorem read3 (X : S128x128.Idx → EReal) (t : Fin cfg0.N) (k : Fin 128) (q : Fin 128) :
    ((cfg0.win 3).blk t).view.read (Elt Ideal) X (ix2 k q) = X (ix2 k q) := by
  show X (((cfg0.win 3).blk t).view.emb (ix2 k q)) = _
  refine congrArg X (funext fun a => Fin.ext ?_)
  obtain ⟨e0, e1, -⟩ := idx_first t
  match a with
  | ⟨0, _⟩ => show win0_3.index t (0 : Fin 2) * 128 + 1 * k.val = k.val; rw [e0]; omega
  | ⟨1, _⟩ => show win0_3.index t (1 : Fin 2) * 128 + 1 * q.val = q.val; rw [e1]; omega

theorem read4 (X : S128x128.Idx → EReal) (t : Fin cfg0.N) (k : Fin 128) (q : Fin 128) :
    ((cfg0.win 4).blk t).view.read (Elt Ideal) X (ix2 k q) = X (ix2 k q) := by
  show X (((cfg0.win 4).blk t).view.emb (ix2 k q)) = _
  refine congrArg X (funext fun a => Fin.ext ?_)
  obtain ⟨-, -, e0, e1, -⟩ := idx_first t
  match a with
  | ⟨0, _⟩ => show win0_4.index t (0 : Fin 2) * 128 + 1 * k.val = k.val; rw [e0]; omega
  | ⟨1, _⟩ => show win0_4.index t (1 : Fin 2) * 128 + 1 * q.val = q.val; rw [e1]; omega

theorem read5 (X : S64x128.Idx → EReal) (t : Fin cfg0.N) (k : Fin 64) (q : Fin 128) :
    ((cfg0.win 5).blk t).view.read (Elt Ideal) X (ix2 k q) = X (ix2 k q) := by
  show X (((cfg0.win 5).blk t).view.emb (ix2 k q)) = _
  refine congrArg X (funext fun a => Fin.ext ?_)
  obtain ⟨-, -, -, -, e0, e1, -⟩ := idx_first t
  match a with
  | ⟨0, _⟩ => show win0_5.index t (0 : Fin 2) * 64 + 1 * k.val = k.val; rw [e0]; omega
  | ⟨1, _⟩ => show win0_5.index t (1 : Fin 2) * 128 + 1 * q.val = q.val; rw [e1]; omega

theorem read6 (X : S128.Idx → EReal) (t : Fin cfg0.N) (q : Fin 128) :
    ((cfg0.win 6).blk t).view.read (Elt Ideal) X (ix1 q) = X (ix1 q) := by
  show X (((cfg0.win 6).blk t).view.emb (ix1 q)) = _
  refine congrArg X (funext fun a => Fin.ext ?_)
  obtain ⟨-, -, -, -, -, -, e0⟩ := idx_first t
  match a with
  | ⟨0, _⟩ => show win0_6.index t (0 : Fin 1) * 128 + 1 * q.val = q.val; rw [e0]; omega

theorem read7 (X : S128x128.Idx → EReal) (t : Fin cfg0.N) (k : Fin 128) (q : Fin 128) :
    ((cfg0.win 7).blk t).view.read (Elt Ideal) X (ix2 k q) = X (ix2 k q) := by
  show X (((cfg0.win 7).blk t).view.emb (ix2 k q)) = _
  refine congrArg X (funext fun a => Fin.ext ?_)
  obtain ⟨e0, e1, -⟩ := idx_second t
  match a with
  | ⟨0, _⟩ => show win0_7.index t (0 : Fin 2) * 128 + 1 * k.val = k.val; rw [e0]; omega
  | ⟨1, _⟩ => show win0_7.index t (1 : Fin 2) * 128 + 1 * q.val = q.val; rw [e1]; omega

theorem read8 (X : S128x128.Idx → EReal) (t : Fin cfg0.N) (k : Fin 128) (q : Fin 128) :
    ((cfg0.win 8).blk t).view.read (Elt Ideal) X (ix2 k q) = X (ix2 k q) := by
  show X (((cfg0.win 8).blk t).view.emb (ix2 k q)) = _
  refine congrArg X (funext fun a => Fin.ext ?_)
  obtain ⟨-, -, e0, e1, -⟩ := idx_second t
  match a with
  | ⟨0, _⟩ => show win0_8.index t (0 : Fin 2) * 128 + 1 * k.val = k.val; rw [e0]; omega
  | ⟨1, _⟩ => show win0_8.index t (1 : Fin 2) * 128 + 1 * q.val = q.val; rw [e1]; omega

theorem read9 (X : S64x128.Idx → EReal) (t : Fin cfg0.N) (k : Fin 64) (q : Fin 128) :
    ((cfg0.win 9).blk t).view.read (Elt Ideal) X (ix2 k q) = X (ix2 k q) := by
  show X (((cfg0.win 9).blk t).view.emb (ix2 k q)) = _
  refine congrArg X (funext fun a => Fin.ext ?_)
  obtain ⟨-, -, -, -, e0, e1, -⟩ := idx_second t
  match a with
  | ⟨0, _⟩ => show win0_9.index t (0 : Fin 2) * 64 + 1 * k.val = k.val; rw [e0]; omega
  | ⟨1, _⟩ => show win0_9.index t (1 : Fin 2) * 128 + 1 * q.val = q.val; rw [e1]; omega

theorem read10 (X : S128.Idx → EReal) (t : Fin cfg0.N) (q : Fin 128) :
    ((cfg0.win 10).blk t).view.read (Elt Ideal) X (ix1 q) = X (ix1 q) := by
  show X (((cfg0.win 10).blk t).view.emb (ix1 q)) = _
  refine congrArg X (funext fun a => Fin.ext ?_)
  obtain ⟨-, -, -, -, -, -, e0⟩ := idx_second t
  match a with
  | ⟨0, _⟩ => show win0_10.index t (0 : Fin 1) * 128 + 1 * q.val = q.val; rw [e0]; omega

/-! ## The output block's place in the array -/

/-- Entry (p, q) of point t's output block is entry (edge of (t, p), q) of the output array. -/
theorem emb11 (t : Fin cfg0.N) (p : Fin 3200) (q : Fin 128) :
    ((cfg0.win 11).blk t).view.emb (ix2 p q) = ix2 (edgeOf t p) q := by
  refine funext fun a => Fin.ext ?_
  obtain ⟨-, -, -, -, -, -, e0, e1⟩ := idx_edges t
  match a with
  | ⟨0, _⟩ => show win0_11.index t (0 : Fin 2) * 3200 + 1 * p.val = t.val * 3200 + p.val; rw [e0]; omega
  | ⟨1, _⟩ => show win0_11.index t (1 : Fin 2) * 128 + 1 * q.val = q.val; rw [e1]; omega

end Cert.KernelIdeal.Blocks

end
-- ==== Proof.LibMatmulAt.lean ====
/-
  A PLAIN MATRIX PRODUCT READ AT AN INDEX. A tpu.matmul of an M x K block with a K x N matrix into the zero splat,
  at the ideal instance, read at (p, q): the sum over k of l (p, k) * r (k, q).

  The lemma takes the dimension numbers d as given and asks for the four facts that say which operand coordinate an
  output index j and a contraction index k are sent to (left: (j 0, k); right: (k, j 1)) and that the contraction
  shape has one axis of extent K. For a printed record with contracting dims [1] x [0] and no batch axes each is one
  line: the two non-contracting ones by unfolding DotDims.lhsIdx / rhsIdx at the literal axis (dif_neg on the batch
  list, dif_pos on the non-contracting list, both decided), the two contracting ones by
  DotDims.lhsIdx_val_of_single rfl / rhsIdx_val_of_single rfl, the contraction shape's by rfl.
-/
import Idealize.ShloMosaic.PureOps.Ideal.Laws
import Idealize.ShloMosaic.Lib.ValueIdx

noncomputable section

namespace Idealize.ShloMosaic.MatmulAt

open Idealize.ShloMosaic Idealize.ShloMosaic.ValueIdx

/-- A product of an M x K block with a K x N matrix into a zero accumulator, at (p, q): the sum over k of the
    entries' products, given where the dimension numbers send an output index and a contraction index. -/
theorem matmul_at {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (l0 : ∀ (j : (⟨2, ![M, N]⟩ : Shape).Idx) (q : d.contr.Idx), (d.lhsIdx j q 0).val = (j 0).val)
    (l1 : ∀ (j : (⟨2, ![M, N]⟩ : Shape).Idx) (q : d.contr.Idx), (d.lhsIdx j q 1).val = (q ⟨0, by omega⟩).val)
    (r0 : ∀ (j : (⟨2, ![M, N]⟩ : Shape).Idx) (q : d.contr.Idx), (d.rhsIdx j q 0).val = (q ⟨0, by omega⟩).val)
    (r1 : ∀ (j : (⟨2, ![M, N]⟩ : Shape).Idx) (q : d.contr.Idx), (d.rhsIdx j q 1).val = (j 1).val)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

end Idealize.ShloMosaic.MatmulAt

end
-- ==== Proof.LibDotAt.lean ====
/-
  A PLAIN DOT PRODUCT ON THE HOST READ AT AN INDEX, and the axis facts of plain dimension numbers.

  For dimension numbers of an M x K by K x N product with no batch axes — contracting [1] x [0], free axes [0] and [1] —
  the operand indices at an output index j and a contraction index k are (j 0, k) on the left and (k, j 1) on the right
  (`plain_l0` … `plain_r1`, each from the lists alone). With them a host dot_general at the ideal instance, read at (p, q),
  is the sum over k of l (p, k) * r (k, q) (`dotGeneral_plain`), and so is a matrix product into the zero splat
  (`matmul_plain`): the two are one function of their operands.
-/
import Idealize.ShloMosaic.PureOps.Ideal.Laws
import Idealize.ShloMosaic.Lib.ValueIdx
import proofs.«411276_j4767413698834_1_alg».proof.Proof.LibMatmulAt

noncomputable section

namespace Idealize.ShloMosaic.DotAt

open Idealize.ShloMosaic Idealize.ShloMosaic.ValueIdx

variable {M K N : Nat} (d : DotDims ⟨2, ![M, K]⟩ ⟨2, ![K, N]⟩ ⟨2, ![M, N]⟩)

private theorem coord_congr (j : (⟨2, ![M, N]⟩ : Shape).Idx) (p q : Nat) (hp : p < 2) (hq : q < 2) (h : p = q) :
    (j ⟨p, hp⟩).val = (j ⟨q, hq⟩).val := by subst h; rfl

/-- The left operand's free axis follows the output's axis 0. -/
theorem plain_l0 (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The right operand's free axis follows the output's axis 1. -/
theorem plain_r1 (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- A host dot_general with plain dimension numbers, at the ideal instance, read at (p, q). -/
theorem dotGeneral_plain {φ₁ φ₂ : FTy} (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact plain_l0 d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact plain_r1 d hlb hrb hln hrn _ _)
  rw [el, er]

/-- A matrix product with plain dimension numbers into the zero splat, at the ideal instance, read at (p, q). -/
theorem matmul_plain {φ₁ φ₂ : FTy} (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) :=
  MatmulAt.matmul_at d hr hs (plain_l0 d hlb hln) (fun j q => d.lhsIdx_val_of_single hlc j q)
    (fun j q => d.rhsIdx_val_of_single hrc j q) (plain_r1 d hlb hrb hln hrn) prec l r p q

end Idealize.ShloMosaic.DotAt

end
-- ==== Proof.Body.lean ====
/-
  ONE GRID POINT OF THE KERNEL, read at an index.

  At a grid point the body holds a block of 3200 edges: the gathered target rows x0 and source rows x1 ([3200, 128]),
  the edges' own features x2 ([3200, 64]), and, whole, the three row blocks of each layer's weights with its bias.
  It forms, for each layer, three matrix products into zero accumulators, adds them in the order
  ((target + source) + edge) and adds the bias row; the narrowing to sixteen-bit floats before each product is the
  identity on extended reals. The entry it stores at (p, q) is the gate of the two layers' entries at (p, q):
  the logistic function of the first times softplus of the second, softplus under a test for a NaN that no extended
  real passes, so that its second branch is always the one taken.
-/
import proofs.«411276_j4767413698834_1_alg».proof.Proof.Gen.KernelIdeal.Skeleton
import proofs.«411276_j4767413698834_1_alg».proof.Proof.LibDotAt
import proofs.«411276_j4767413698834_1_alg».proof.Proof.Message
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Body

open Cert.KernelIdeal Cert.KernelIdeal.Gen
open Idealize.ShloMosaic Idealize.ShloMosaic.ValueIdx Cert.EdgeMessage

/-- A [3200, 128] by [128, 128] product into the zero splat, at (p, q): the sum over k of the entries' products. -/
theorem mm128 (l : FVec Ideal S3200x128 .bf16) (r : FVec Ideal S128x128 .bf16) (p : Fin 3200) (q : Fin 128) :
    matmul dot_S3200x128_S128x128_S3200x128_1_0_0_1_n_n none l r (constant (F := Ideal) S3200x128 .f32 0x00000000#32) (ix2 p q)
      = ∑ k : Fin 128, l (ix2 p k) * r (ix2 k q) :=
  DotAt.matmul_plain dot_S3200x128_S128x128_S3200x128_1_0_0_1_n_n rfl rfl rfl rfl rfl rfl rfl rfl none l r p q

/-- A [3200, 64] by [64, 128] product into the zero splat, at (p, q). -/
theorem mm64 (l : FVec Ideal S3200x64 .bf16) (r : FVec Ideal S64x128 .bf16) (p : Fin 3200) (q : Fin 128) :
    matmul dot_S3200x64_S64x128_S3200x128_1_0_0_1_n_n none l r (constant (F := Ideal) S3200x128 .f32 0x00000000#32) (ix2 p q)
      = ∑ k : Fin 64, l (ix2 p k) * r (ix2 k q) :=
  DotAt.matmul_plain dot_S3200x64_S64x128_S3200x128_1_0_0_1_n_n rfl rfl rfl rfl rfl rfl rfl rfl none l r p q

/-- The bias, cast to a [1, 128] row and broadcast down the block, reads the bias at the column. -/
theorem bias_apply (b : FVec Ideal S128 .f32) (p : Fin 3200) (q : Fin 128) :
    broadcastTo S3200x128 (shapeCast S1x128 b shapeCasts_S128_S1x128) broadcasts_S1x128_S3200x128 (ix2 p q) = b (ix1 q) :=
  (broadcastTo_1b_ab_apply _ _ p q).trans (shapeCast_a_1a_apply b _ 0 q)

/-- A dense layer on one block: the three groups' partial sums, added target, source, edge, then the bias. -/
def blockLin (x0 x1 : Vec Ideal S3200x128 .f32) (x2 : Vec Ideal S3200x64 .f32) (w0 w1 : Vec Ideal S128x128 .f32)
    (w2 : Vec Ideal S64x128 .f32) (b : Vec Ideal S128 .f32) (p : Fin 3200) (q : Fin 128) : EReal :=
  ((∑ k : Fin 128, x0 (ix2 p k) * w0 (ix2 k q) + ∑ k : Fin 128, x1 (ix2 p k) * w1 (ix2 k q))
    + ∑ k : Fin 64, x2 (ix2 p k) * w2 (ix2 k q)) + b (ix1 q)

/-- The first layer's output on the block is that dense layer. -/
theorem first_layer (x0 x1 : Vec Ideal S3200x128 .f32) (x2 : Vec Ideal S3200x64 .f32) (x3 x4 : Vec Ideal S128x128 .f32)
    (x5 : Vec Ideal S64x128 .f32) (x6 : Vec Ideal S128 .f32) (p : Fin 3200) (q : Fin 128) :
    k0_pay7 x0 x1 x2 x3 x4 x5 x6 (ix2 p q) = blockLin x0 x1 x2 x3 x4 x5 x6 p q := by
  unfold k0_pay7 k0_pay2 k0_pay3 k0_pay4 blockLin
  simp only [addf_apply, mm128, mm64, bias_apply, truncf_apply, shapeCast_self]

/-- The second layer's first product on the block. -/
theorem second_first (x0 : Vec Ideal S3200x128 .f32) (x7 : Vec Ideal S128x128 .f32) (p : Fin 3200) (q : Fin 128) :
    k0_pay8 x0 x7 (ix2 p q) = ∑ k : Fin 128, x0 (ix2 p k) * x7 (ix2 k q) := by
  unfold k0_pay8 k0_pay2
  simp only [mm128, truncf_apply, shapeCast_self]

/-- WHAT THE BODY STORES at (p, q): the gate of the two layers' entries. -/
theorem payload_apply (x0 x1 : Vec Ideal S3200x128 .f32) (x2 : Vec Ideal S3200x64 .f32) (x3 x4 : Vec Ideal S128x128 .f32)
    (x5 : Vec Ideal S64x128 .f32) (x6 : Vec Ideal S128 .f32) (x7 x8 : Vec Ideal S128x128 .f32) (x9 : Vec Ideal S64x128 .f32)
    (x10 : Vec Ideal S128 .f32) (p : Fin 3200) (q : Fin 128) :
    k0_pay1 (k0_pay3 x1) (k0_pay4 x2) (k0_pay5 x8) (k0_pay6 x9) (k0_pay7 x0 x1 x2 x3 x4 x5 x6) (k0_pay8 x0 x7) x10 (ix2 p q)
      = gate (blockLin x0 x1 x2 x3 x4 x5 x6 p q) (blockLin x0 x1 x2 x7 x8 x9 x10 p q) := by
  have hz : ((k0_pay8 x0 x7 (ix2 p q) + ∑ k : Fin 128, x1 (ix2 p k) * x8 (ix2 k q))
      + ∑ k : Fin 64, x2 (ix2 p k) * x9 (ix2 k q)) + x10 (ix1 q) = blockLin x0 x1 x2 x7 x8 x9 x10 p q := by
    rw [second_first]; rfl
  rw [← first_layer, ← hz]
  unfold k0_pay1 k0_pay3 k0_pay4 k0_pay5 k0_pay6 gate softplus
  simp only [mulf_apply, addf_apply, subf_apply, maximumf_apply, select_apply, cmpf_apply, broadcast_apply, mm128, mm64,
    bias_apply, truncf_apply, shapeCast_self, logistic, absf, exp, log1p, Ideal.logistic_def, Ideal.exp_def,
    Ideal.log1p_def, Ideal.cmpf_def, Ideal.absf_def, Ideal.scalar_cmpf_def, cmp_one_self, ValueIdx.select_zero, Ideal.ofBits_def,
    Ideal.ofBits_zero_f32, zero_sub]

end Cert.KernelIdeal.Body

end
-- ==== Proof.BlockFlush.lean ====
/-
  WHAT A GRID POINT WRITES BACK is its block of the message array.

  For ANY contents of the windows' arrays, a dense layer over point t's blocks at (p, q) is the dense layer over the
  whole arrays for edge 3200 t + p and column q: each block entry is the array's entry for that edge, the weight blocks
  and biases are the arrays themselves. The body's stored entry at (p, q) is the gate of the two layers over the
  point's blocks; so the block written back is rows 3200 t .. of the message array over the staged arrays.
-/
import proofs.«411276_j4767413698834_1_alg».proof.Proof.BlockReads
import proofs.«411276_j4767413698834_1_alg».proof.Proof.Body

set_option maxRecDepth 16384

noncomputable section

namespace Cert.KernelIdeal.Blocks

open Cert.KernelIdeal Cert.KernelIdeal.Gen
open Idealize.ShloMosaic Idealize.ShloMosaic.TcCoe Idealize.SL.Sem
open Idealize.ShloMosaic.ValueIdx Cert.EdgeMessage
open Idealize.ShloMosaic.Pipeline (Dat)

/-- The first layer over point t's blocks is the layer over the whole arrays at edge 3200 t + p. -/
theorem layer1_point (A0 A1 : S800000x128.Idx → EReal) (A2 : S800000x64.Idx → EReal) (B3 B4 : S128x128.Idx → EReal)
    (B5 : S64x128.Idx → EReal) (b6 : S128.Idx → EReal) (t : Fin cfg0.N) (p : Fin 3200) (q : Fin 128) :
    Body.blockLin (((cfg0.win 0).blk t).view.read (Elt Ideal) A0) (((cfg0.win 1).blk t).view.read (Elt Ideal) A1)
        (((cfg0.win 2).blk t).view.read (Elt Ideal) A2) (((cfg0.win 3).blk t).view.read (Elt Ideal) B3)
        (((cfg0.win 4).blk t).view.read (Elt Ideal) B4) (((cfg0.win 5).blk t).view.read (Elt Ideal) B5)
        (((cfg0.win 6).blk t).view.read (Elt Ideal) b6) p q
      = linK A0 A1 A2 B3 B4 B5 b6 (edgeOf t p) q := by
  refine congrArg₂ (· + ·) (congrArg₂ (· + ·) (congrArg₂ (· + ·) ?_ ?_) ?_) (read6 b6 t q)
  · exact Finset.sum_congr rfl fun k _ => congrArg₂ (· * ·) (read0 A0 t p k) (read3 B3 t k q)
  · exact Finset.sum_congr rfl fun k _ => congrArg₂ (· * ·) (read1 A1 t p k) (read4 B4 t k q)
  · exact Finset.sum_congr rfl fun k _ => congrArg₂ (· * ·) (read2 A2 t p k) (read5 B5 t k q)

/-- The second layer likewise, over its own weight blocks and bias. -/
theorem layer2_point (A0 A1 : S800000x128.Idx → EReal) (A2 : S800000x64.Idx → EReal) (B7 B8 : S128x128.Idx → EReal)
    (B9 : S64x128.Idx → EReal) (b10 : S128.Idx → EReal) (t : Fin cfg0.N) (p : Fin 3200) (q : Fin 128) :
    Body.blockLin (((cfg0.win 0).blk t).view.read (Elt Ideal) A0) (((cfg0.win 1).blk t).view.read (Elt Ideal) A1)
        (((cfg0.win 2).blk t).view.read (Elt Ideal) A2) (((cfg0.win 7).blk t).view.read (Elt Ideal) B7)
        (((cfg0.win 8).blk t).view.read (Elt Ideal) B8) (((cfg0.win 9).blk t).view.read (Elt Ideal) B9)
        (((cfg0.win 10).blk t).view.read (Elt Ideal) b10) p q
      = linK A0 A1 A2 B7 B8 B9 b10 (edgeOf t p) q := by
  refine congrArg₂ (· + ·) (congrArg₂ (· + ·) (congrArg₂ (· + ·) ?_ ?_) ?_) (read10 b10 t q)
  · exact Finset.sum_congr rfl fun k _ => congrArg₂ (· * ·) (read0 A0 t p k) (read7 B7 t k q)
  · exact Finset.sum_congr rfl fun k _ => congrArg₂ (· * ·) (read1 A1 t p k) (read8 B8 t k q)
  · exact Finset.sum_congr rfl fun k _ => congrArg₂ (· * ·) (read2 A2 t p k) (read9 B9 t k q)

variable (m : (ℓ : Loc nD τ sig) → Buf (Elt Ideal) ℓ)

/-! ## Each window's block is the block of the array the window stages -/

theorem iblk_eq0 (c : Dev nD) (t : Fin cfg0.N) :
    iblk m c 0 t = ((cfg0.win 0).blk t).view.read (Elt Ideal) (V m c main_v4) := rfl
theorem iblk_eq1 (c : Dev nD) (t : Fin cfg0.N) :
    iblk m c 1 t = ((cfg0.win 1).blk t).view.read (Elt Ideal) (V m c main_v5) := rfl
theorem iblk_eq2 (c : Dev nD) (t : Fin cfg0.N) :
    iblk m c 2 t = ((cfg0.win 2).blk t).view.read (Elt Ideal) (V m c main_arg2) := rfl
theorem iblk_eq3 (c : Dev nD) (t : Fin cfg0.N) :
    iblk m c 3 t = ((cfg0.win 3).blk t).view.read (Elt Ideal) (V m c main_v6) := rfl
theorem iblk_eq4 (c : Dev nD) (t : Fin cfg0.N) :
    iblk m c 4 t = ((cfg0.win 4).blk t).view.read (Elt Ideal) (V m c main_v7) := rfl
theorem iblk_eq5 (c : Dev nD) (t : Fin cfg0.N) :
    iblk m c 5 t = ((cfg0.win 5).blk t).view.read (Elt Ideal) (V m c main_v8) := rfl
theorem iblk_eq6 (c : Dev nD) (t : Fin cfg0.N) :
    iblk m c 6 t = ((cfg0.win 6).blk t).view.read (Elt Ideal) (V m c main_arg4) := rfl
theorem iblk_eq7 (c : Dev nD) (t : Fin cfg0.N) :
    iblk m c 7 t = ((cfg0.win 7).blk t).view.read (Elt Ideal) (V m c main_v9) := rfl
theorem iblk_eq8 (c : Dev nD) (t : Fin cfg0.N) :
    iblk m c 8 t = ((cfg0.win 8).blk t).view.read (Elt Ideal) (V m c main_v10) := rfl
theorem iblk_eq9 (c : Dev nD) (t : Fin cfg0.N) :
    iblk m c 9 t = ((cfg0.win 9).blk t).view.read (Elt Ideal) (V m c main_v11) := rfl
theorem iblk_eq10 (c : Dev nD) (t : Fin cfg0.N) :
    iblk m c 10 t = ((cfg0.win 10).blk t).view.read (Elt Ideal) (V m c main_arg6) := rfl

theorem hz2 : (![0, 0] : Fin 2 → Nat) = fun _ => 0 := funext fun a => by fin_cases a <;> rfl
theorem hz1 : (![0] : Fin 1 → Nat) = fun _ => 0 := funext fun a => by fin_cases a <;> rfl

/-- The message array at (e, q): the gate of the two layers over the staged arrays. -/
theorem msgK_apply (c : Dev nD) (e : Fin 800000) (q : Fin 128) :
    msgK m c (ix2 e q) = gate (linK (V m c main_v4) (V m c main_v5) (V m c main_arg2) (V m c main_v6) (V m c main_v7) (V m c main_v8) (V m c main_arg4) e q)
      (linK (V m c main_v4) (V m c main_v5) (V m c main_arg2) (V m c main_v9) (V m c main_v10) (V m c main_v11) (V m c main_arg6) e q) := rfl

/-- For ANY array G that holds, at every edge of point t and every column, the gate of the two layers over the staged
    arrays, what point t writes back is block t of G. -/
theorem flushed_of (c : Dev nD) (t : Fin cfg0.N) (G : S800000x128.Idx → EReal)
    (hG : ∀ (p : Fin 3200) (q : Fin 128), G (ix2 (edgeOf t p) q)
      = gate (linK (V m c main_v4) (V m c main_v5) (V m c main_arg2) (V m c main_v6) (V m c main_v7) (V m c main_v8) (V m c main_arg4) (edgeOf t p) q)
          (linK (V m c main_v4) (V m c main_v5) (V m c main_arg2) (V m c main_v9) (V m c main_v10) (V m c main_v11) (V m c main_arg6) (edgeOf t p) q)) :
    (dats m 0 c).flushed 11 t = ((cfg0.win 11).blk t).view.read (Elt Ideal) G := by
  show (cfg0.win 11).cut (grid0.coords t) ((dats m 0 c).after 11 t) = _
  rw [after0_11]
  unfold out0_11
  rw [View.canon_unit_zero hz2]
  simp only [View.ld_unit_zero (S := S3200x128) hz2, View.ld_unit_zero (S := S3200x64) hz2,
    View.ld_unit_zero (S := S128x128) hz2, View.ld_unit_zero (S := S64x128) hz2, View.ld_unit_zero (S := S128) hz1]
  funext y
  obtain ⟨p, q, rfl⟩ : ∃ (p : Fin 3200) (q : Fin 128), y = ix2 p q := ⟨y 0, y 1, eq_ix2 y⟩
  refine (Body.payload_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) p q).trans ?_
  show _ = G (((cfg0.win 11).blk t).view.emb (ix2 p q))
  rw [emb11 t p q, hG p q, iblk_eq0, iblk_eq1, iblk_eq2, iblk_eq3, iblk_eq4, iblk_eq5, iblk_eq6, iblk_eq7, iblk_eq8,
    iblk_eq9, iblk_eq10]
  exact congrArg₂ gate (layer1_point _ _ _ _ _ _ _ t p q) (layer2_point _ _ _ _ _ _ _ t p q)

/-- WHAT POINT t WRITES BACK is block t of the message array. -/
theorem flushed_eq (c : Dev nD) (t : Fin cfg0.N) :
    (dats m 0 c).flushed 11 t = ((cfg0.win 11).blk t).view.read (Elt Ideal) (msgK m c) :=
  flushed_of m c t (msgK m c) fun p q => msgK_apply m c (edgeOf t p) q

end Cert.KernelIdeal.Blocks

end
-- ==== Proof.Blocks.lean ====
/-
  FROM BLOCKS TO THE ARRAY: the 250 output blocks tile the 800000 rows of the output array (row e lies in the block of
  point e / 3200), every point writes its block back, and each block is the message array's: so the output array ends
  holding the message array everywhere.
-/
import proofs.«411276_j4767413698834_1_alg».proof.Proof.BlockFlush

set_option maxRecDepth 16384

noncomputable section

namespace Cert.KernelIdeal.Blocks

open Cert.KernelIdeal Cert.KernelIdeal.Gen
open Idealize.ShloMosaic Idealize.ShloMosaic.TcCoe Idealize.SL.Sem
open Idealize.ShloMosaic.ValueIdx Cert.EdgeMessage
open Idealize.ShloMosaic.Pipeline (Dat)

variable (m : (ℓ : Loc nD τ sig) → Buf (Elt Ideal) ℓ)

/-! ## The cover, and the array after the region -/

/-- An index of the output array is in point t's block iff each coordinate is in the block's range on its axis. -/
theorem mem_blk (t : Fin cfg0.N) (i : S800000x128.Idx) :
    i ∈ ((cfg0.win 11).blk t).view.set ↔ ∀ a : Fin 2, win0_11.index t a * S3200x128.size a ≤ (i a).val
      ∧ (i a).val < win0_11.index t a * S3200x128.size a + S3200x128.size a := by
  show i ∈ ((View.whole main_v12).slice (win0_11.rect t)).set ↔ _
  rw [View.set_slice_whole, Rect.mem_set_unit]
  exact Iff.rfl

/-- Every row e of the output array lies in the block of point e / 3200. -/
theorem cover (i : S800000x128.Idx) :
    ∃ t : Fin cfg0.N, (cfg0.win 11).flush t = true ∧ i ∈ ((cfg0.win 11).blk t).view.set := by
  have hi0 : (i 0).val < 800000 := (i 0).isLt
  have hi1 : (i 1).val < 128 := (i 1).isLt
  have hN : cfg0.N = 250 := N_0
  obtain ⟨t, ht⟩ : ∃ t : Fin cfg0.N, t.val = (i 0).val / 3200 := ⟨⟨(i 0).val / 3200, by omega⟩, rfl⟩
  obtain ⟨-, -, -, -, -, -, e0, e1⟩ := idx_edges t
  refine ⟨t, flush0_11 t, ?_⟩
  rw [mem_blk]
  intro a
  match a with
  | ⟨0, _⟩ =>
    show win0_11.index t (0 : Fin 2) * 3200 ≤ (i 0).val ∧ (i 0).val < win0_11.index t (0 : Fin 2) * 3200 + 3200
    rw [e0]; omega
  | ⟨1, _⟩ =>
    show win0_11.index t (1 : Fin 2) * 128 ≤ (i 1).val ∧ (i 1).val < win0_11.index t (1 : Fin 2) * 128 + 128
    rw [e1]; omega

/-- THE OUTPUT ARRAY AFTER THE REGION is the message array. -/
theorem final (c : Dev nD) : (dats m 0 c).arrAt 11 cfg0.N = msgK m c :=
  (dats m 0 c).arrAt_eq_of_cover 11 (msgK m c) (fun t _ => flushed_eq m c t) cover

end Cert.KernelIdeal.Blocks

end
-- ==== Proof.KernelArrays.lean ====
/-
  THE ARRAYS THE KERNEL'S REGION FINDS, as terms of the program's arguments.

  Before the region the program slices the [2, 800000] edge index array into its two rows (sources, row 0; targets,
  row 1), takes the node rows x[target] and x[source] — each a take that wraps negative indices by the extent 50000,
  gathers, and then replaces every row whose wrapped index is outside [0, 49999] by a fill value —, and cuts each weight
  matrix [320, 128] into the row blocks 0..127, 128..255 and 256..319. `takeRows`, `indexRow` and the slices below are
  those terms; the theorems say that the region's windows stage exactly them (the host operations, run in order).
-/
import proofs.«411276_j4767413698834_1_alg».proof.Proof.Gen.KernelIdeal.Frame
import Idealize.ShloMosaic.Lib.StableHlo.Run

set_option maxRecDepth 16384

noncomputable section

namespace Cert.KernelIdeal.Arrays

open Cert.KernelIdeal Cert.KernelIdeal.Gen
open Idealize.ShloMosaic Idealize.ShloMosaic.TcCoe Idealize.ShloMosaic.Tactic Idealize.SL.Sem

variable {F : FTy → Type} [FloatOps F]

/-- Row 0 (sources) of the edge index array, as a vector of 800000 words. -/
def srcRow (a1 : IVec S2x800000 32) : IVec S800000 32 :=
  shapeCast S800000 (extractStridedSlice S1x800000 ![0, 0] a1 slices_S2x800000_S1x800000_0_0) shapeCasts_S1x800000_S800000

/-- Row 1 (targets) of the edge index array. -/
def dstRow (a1 : IVec S2x800000 32) : IVec S800000 32 :=
  shapeCast S800000 (extractStridedSlice S1x800000 ![1, 0] a1 slices_S2x800000_S1x800000_1_0) shapeCasts_S1x800000_S800000

/-- The index words wrapped numpy's way (a negative word counts from the end: + 50000) and kept as an [800000, 1] column. -/
def wrapCol (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- Per edge, whether the wrapped index lies in [0, 49999]: the conjunction of the two compares, reduced over the
    column's one entry. -/
def inBounds (col : IVec S800000x1 32) : IVec S800000 1 :=
  Host.reduce IntOp.andi
    (andi (cmpi .sge col (broadcastInDim S800000x1 ![] bcast_S_S800000x1 (constantI S_ 32 0#32)))
      (cmpi .sle col (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The take of node rows at a vector of index words: gathered rows where the wrapped index is in bounds, the fill
    value (the word 0x7FC00000) elsewhere. -/
def takeRows (x : FVec F S50000x128 .f32) (v : IVec S800000 32) : FVec F S800000x128 .f32 :=
  select (broadcastInDim S800000x128 ![0] bcast_S800000_S800000x128_0 (inBounds (wrapCol v)))
    (Host.gather gather_S50000x128_S800000x1_S800000x128_1_0_n_n_0_1_1128 x (wrapCol v))
    (broadcastInDim S800000x128 ![] bcast_S_S800000x128 (constant S_ .f32 0x7FC00000#32))

variable (m : (ℓ : Loc nD τ sig) → Buf (Elt F) ℓ)

set_option maxHeartbeats 8000000 in
/-- Window 0 stages the node rows taken at the targets. -/
theorem V_xdst (c : Dev nD) : (V m c main_v4 : S800000x128.Idx → Elt F .f32)
    = takeRows (m ((c : Thread nD τ).loc main_arg0)) (dstRow (m ((c : Thread nD τ).loc main_arg1))) := by
  dsimp only [V, V0]
  simp only [hostOps0, hostOps0_1, hostOps0_2, hostOps0_3, List.flatten_cons, List.flatten_nil, List.append_nil, List.cons_append, List.nil_append]
  after_results_simp
  simp only [cast_eq]
  rfl

set_option maxHeartbeats 8000000 in
/-- Window 1 stages the node rows taken at the sources. -/
theorem V_xsrc (c : Dev nD) : (V m c main_v5 : S800000x128.Idx → Elt F .f32)
    = takeRows (m ((c : Thread nD τ).loc main_arg0)) (srcRow (m ((c : Thread nD τ).loc main_arg1))) := by
  dsimp only [V, V0]
  simp only [hostOps0, hostOps0_1, hostOps0_2, hostOps0_3, List.flatten_cons, List.flatten_nil, List.append_nil, List.cons_append, List.nil_append]
  after_results_simp
  simp only [cast_eq]
  rfl

/-- Windows 3, 4, 5: rows 0..127, 128..255, 256..319 of the first layer's weights. -/
theorem V_wfd (c : Dev nD) : (V m c main_v6 : S128x128.Idx → Elt F .f32)
    = extractStridedSlice S128x128 ![0, 0] (m ((c : Thread nD τ).loc main_arg3)) slices_S320x128_S128x128_0_0 := by
  dsimp only [V, V0]
  simp only [hostOps0, hostOps0_1, hostOps0_2, hostOps0_3, List.flatten_cons, List.flatten_nil, List.append_nil, List.cons_append, List.nil_append]
  after_results

theorem V_wfs (c : Dev nD) : (V m c main_v7 : S128x128.Idx → Elt F .f32)
    = extractStridedSlice S128x128 ![128, 0] (m ((c : Thread nD τ).loc main_arg3)) slices_S320x128_S128x128_128_0 := by
  dsimp only [V, V0]
  simp only [hostOps0, hostOps0_1, hostOps0_2, hostOps0_3, List.flatten_cons, List.flatten_nil, List.append_nil, List.cons_append, List.nil_append]
  after_results

theorem V_wfe (c : Dev nD) : (V m c main_v8 : S64x128.Idx → Elt F .f32)
    = extractStridedSlice S64x128 ![256, 0] (m ((c : Thread nD τ).loc main_arg3)) slices_S320x128_S64x128_256_0 := by
  dsimp only [V, V0]
  simp only [hostOps0, hostOps0_1, hostOps0_2, hostOps0_3, List.flatten_cons, List.flatten_nil, List.append_nil, List.cons_append, List.nil_append]
  after_results

/-- Windows 7, 8, 9: the same row blocks of the second layer's weights. -/
theorem V_wsd (c : Dev nD) : (V m c main_v9 : S128x128.Idx → Elt F .f32)
    = extractStridedSlice S128x128 ![0, 0] (m ((c : Thread nD τ).loc main_arg5)) slices_S320x128_S128x128_0_0 := by
  dsimp only [V, V0]
  simp only [hostOps0, hostOps0_1, hostOps0_2, hostOps0_3, List.flatten_cons, List.flatten_nil, List.append_nil, List.cons_append, List.nil_append]
  after_results

theorem V_wss (c : Dev nD) : (V m c main_v10 : S128x128.Idx → Elt F .f32)
    = extractStridedSlice S128x128 ![128, 0] (m ((c : Thread nD τ).loc main_arg5)) slices_S320x128_S128x128_128_0 := by
  dsimp only [V, V0]
  simp only [hostOps0, hostOps0_1, hostOps0_2, hostOps0_3, List.flatten_cons, List.flatten_nil, List.append_nil, List.cons_append, List.nil_append]
  after_results

theorem V_wse (c : Dev nD) : (V m c main_v11 : S64x128.Idx → Elt F .f32)
    = extractStridedSlice S64x128 ![256, 0] (m ((c : Thread nD τ).loc main_arg5)) slices_S320x128_S64x128_256_0 := by
  dsimp only [V, V0]
  simp only [hostOps0, hostOps0_1, hostOps0_2, hostOps0_3, List.flatten_cons, List.flatten_nil, List.append_nil, List.cons_append, List.nil_append]
  after_results

end Cert.KernelIdeal.Arrays

end
-- ==== Proof.LibRowGather.lean ====
/-
  THE ROW GATHER READ AT AN INDEX. What `table[idx]` of a rank-2 table `table : [N, C]` at a vector of row indices
  lowers to: a `stablehlo.gather` with offset_dims `[1]`, collapsed_slice_dims `[0]`, start_index_map `[0]`,
  index_vector_dim `1` and slice_sizes `[1, C]`, over the indices kept as an `[n, 1]` column. Its result is `[n, C]`,
  and the element at `(p, q)` is the table's at `(row, q)`, where `row` is the start index `idx[p, 0]` read as a SIGNED
  integer and CLAMPED into `[0, N − 1]` (StableHLO clamps every start index so that the slice fits; here the slice is
  one row, so the clamp is to the last row): a negative index reads row `0`, one past the end reads row `N − 1`.

  `rowDims` is the record of those dimension numbers, written as a literal structure so that every list lookup in the
  gather's operand index computes; `rowGather_apply` is the read. The lemma is general in `N`, `C`, `n`, the index
  width `w` and the element type; the conditions `wf` on the dimension numbers are decided on a program's literal
  shapes. This is the rank-2 companion of `ValueIdx.gather_take_apply` (a rank-1 table).
-/
import Idealize.ShloMosaic.PureOps.Ideal
import Idealize.ShloMosaic.Lib.ValueIdx
noncomputable section
namespace Idealize.ShloMosaic.RowGather
open Idealize.ShloMosaic Idealize.ShloMosaic.ValueIdx

/-- The dimension numbers of a row gather out of an [N, C] table at an [n, 1] column of row indices. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- The row gather read at (p, q): the table at the clamped signed start index of row p, column q. -/
theorem rowGather_apply {α : Type} {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 (⟨min (idx (ix2 p (0 : Fin 1))).toInt.toNat (N - 1), by omega⟩ : Fin N) q) := by
  -- the gather reads the operand at its operand index: compare the two indices axis by axis, as naturals
  unfold Host.gather
  congr 1
  funext a
  refine Fin.ext ?_
  match a with
  | ⟨0, _⟩ =>
    -- AXIS 0, collapsed and start-indexed: no batching coordinate (no batching axes), no offset coordinate (a collapsed
    -- axis is not a kept one), so the operand coordinate is the clamped start alone
    show (rowDims N C n wf).start (ix2 p q) idx 0 + (rowDims N C n wf).batchCoord (ix2 p q) 0
        + (rowDims N C n wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C n wf).startIndexMap from List.mem_singleton.mpr rfl)]
    -- the start index's one component is read at (p, 0): the result's batch coordinate p on the start indices' axis 0,
    -- the component's number 0 on the index vector's axis 1
    have hsi : (rowDims N C n wf).siIdx (ix2 p q) ⟨List.idxOf (0 : Fin 2) (rowDims N C n wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    -- the clamp's upper end: the axis's extent N less the slice size 1
    rfl
  | ⟨1, _⟩ =>
    -- AXIS 1, an offset axis: the start index map does not name it, so the start is 0; there is no batching
    -- coordinate; it is the operand's one kept axis, read by the result's one offset axis, whose coordinate is q
    show (rowDims N C n wf).start (ix2 p q) idx 1 + (rowDims N C n wf).batchCoord (ix2 p q) 1
        + (rowDims N C n wf).offCoord (ix2 p q) 1 = q.val
    have hk : (1 : Fin 2) ∈ (rowDims N C n wf).sKept :=
      (GatherDims.mem_sKept _ _).mpr ⟨by show (1 : Fin 2) ∉ [(0 : Fin 2)]; decide, List.not_mem_nil⟩
    rw [GatherDims.batchCoord_eq_zero _ _ _ List.not_mem_nil]
    unfold GatherDims.start GatherDims.offCoord
    rw [dif_neg (show (1 : Fin 2) ∉ (rowDims N C n wf).startIndexMap by
      show (1 : Fin 2) ∉ [(0 : Fin 2)]; decide), dif_pos hk]
    simp only [Nat.zero_add]
    rfl
end Idealize.ShloMosaic.RowGather
end
-- ==== Proof.LibAllOnes.lean ====
/-
  GENERAL LEMMA. A REDUCTION BY `and` OVER ALL-ONES BITS IS ONE.

  A one-operand stablehlo.reduce by `and` (what jnp.all, or the in-bounds test of a fill-mode take, lowers to) folds the
  operand's bits that drop to a result index into the initial bit. When the initial bit is 1 and every operand bit is 1
  the result is 1 at every result index: `and` of ones is one, whatever the order and however many. This is the converse of
  the library's "a reduction that is 1 met only 1s".
-/
import Idealize.ShloMosaic.Lib.ReduceAll
import Idealize.ShloMosaic.PureOps.Reduce

namespace Idealize.ShloMosaic.AllOnes

open Idealize.ShloMosaic

/-- A left fold by `and` from 1 over a list whose every bit is 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    have : IntOp.andi 1#1 1#1 = 1#1 := by decide
    rw [this]
    exact foldl_andi_ones f hf l

/-- A reduction by `and` from the bit 1 of an operand whose every bit is 1 is 1 at every result index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_ones x hx _

end Idealize.ShloMosaic.AllOnes
-- ==== Proof.NodeIndex.lean ====
/-
  THE NODE AN INDEX WORD NAMES.

  A gather of one row out of a table of 50000 rows reads the row whose number is the start index, taken as a signed
  integer and clamped into [0, 49999]: `node`. For a word already in [0, 50000) the numpy wrap of negatives leaves it
  as it is (`wrap_in_range`), and the two signed compares of an in-bounds test against 0 and 49999 are set
  (`sge_zero`, `sle_last`).
-/
import proofs.«411276_j4767413698834_1_alg».proof.Proof.LibIndexWrap
import Idealize.ShloMosaic.Lib.StableHlo.Predicate

noncomputable section

namespace Cert.NodeIndex

open Idealize.ShloMosaic

/-- The row of a 50000-row table that a start index word reads: its signed value clamped into [0, 49999]. -/
def node (w : BitVec 32) : Fin 50000 := ⟨min w.toInt.toNat 49999, by omega⟩

/-- A word in [0, 50000) is not negative, so the wrap leaves it alone. -/
theorem wrap_in_range (w : BitVec 32) (h : 0 ≤ w.toInt ∧ w.toInt < 50000) : IndexWrap.wrapWord 50000#32 w = w := by
  unfold IndexWrap.wrapWord
  have hn : ¬ (w.slt 0#32 = true) := by
    have : ¬ w.toInt < 0 := by omega
    simpa [BitVec.slt] using this
  rw [if_neg hn]

/-- A word in [0, 50000) passes "w >= 0" … -/
theorem sge_zero (w : BitVec 32) (h : 0 ≤ w.toInt) : IntOp.cmpi .sge w 0#32 = 1#1 := by
  unfold IntOp.cmpi
  refine (StableHlo.Predicate.ofBool_eq_one_iff _).mpr ?_
  have h0 : (0#32 : BitVec 32).toInt = 0 := by decide
  simpa [BitVec.sle, h0] using h

/-- … and "w <= 49999". -/
theorem sle_last (w : BitVec 32) (h : w.toInt < 50000) : IntOp.cmpi .sle w 49999#32 = 1#1 := by
  unfold IntOp.cmpi
  refine (StableHlo.Predicate.ofBool_eq_one_iff _).mpr ?_
  have hN : (49999#32 : BitVec 32).toInt = 49999 := by decide
  have : w.toInt ≤ 49999 := by omega
  simpa [BitVec.sle, hN] using this

end Cert.NodeIndex

end
-- ==== Proof.TakeRead.lean ====
/-
  THE TAKE OF NODE ROWS, read at an entry, for index words that are node numbers.

  When every index word lies in [0, 50000): the wrap of negatives changes nothing; the in-bounds test holds at every
  edge, so its reduction is the bit 1 and the select keeps the gathered row, never the fill value; and the gather reads,
  at (e, k), row `node (v e)` of the table at column k. Likewise each row of the [2, 800000] edge index array, cut out
  and flattened, reads the array's entry in that row.
-/
import proofs.«411276_j4767413698834_1_alg».proof.Proof.KernelArrays
import proofs.«411276_j4767413698834_1_alg».proof.Proof.LibRowGather
import proofs.«411276_j4767413698834_1_alg».proof.Proof.LibIndexWrap
import proofs.«411276_j4767413698834_1_alg».proof.Proof.LibAllOnes
import proofs.«411276_j4767413698834_1_alg».proof.Proof.NodeIndex
import Idealize.ShloMosaic.Lib.ValueIdx
import Idealize.ShloMosaic.Lib.ValueLayout
import Idealize.ShloMosaic.Lib.Pipeline.Value

set_option maxRecDepth 16384

noncomputable section

namespace Cert.KernelIdeal.Arrays

open Cert.KernelIdeal Cert.KernelIdeal.Gen
open Idealize.ShloMosaic Idealize.ShloMosaic.ValueIdx Cert.NodeIndex

variable {F : FTy → Type} [FloatOps F]

/-- Row 0 of the edge index array, flattened, reads the array in row 0. -/
theorem srcRow_apply (a1 : IVec S2x800000 32) (e : Fin 800000) : srcRow a1 (ix1 e) = a1 (ix2 (0 : Fin 2) e) := by
  unfold srcRow
  rw [shapeCast_1a_a_apply]
  exact slice2_axis0_apply 0 a1 _ (0 : Fin 1) e (0 : Fin 2) rfl

/-- Row 1 of the edge index array, flattened, reads the array in row 1. -/
theorem dstRow_apply (a1 : IVec S2x800000 32) (e : Fin 800000) : dstRow a1 (ix1 e) = a1 (ix2 (1 : Fin 2) e) := by
  unfold dstRow
  rw [shapeCast_1a_a_apply]
  exact slice2_axis0_apply 1 a1 _ (0 : Fin 1) e (1 : Fin 2) rfl

/-- The wrapped column at row e is the word itself when the word is a node number. -/
theorem wrapCol_apply (v : IVec S800000 32) (e : Fin 800000)
    (h : 0 ≤ (v (ix1 e)).toInt ∧ (v (ix1 e)).toInt < 50000) : wrapCol v (ix2 e (0 : Fin 1)) = v (ix1 e) := by
  unfold wrapCol
  rw [IndexWrap.column_apply, IndexWrap.wrapped_apply, wrap_in_range _ h]

/-- Every edge passes the in-bounds test when every word is a node number. -/
theorem inBounds_one (v : IVec S800000 32) (hv : ∀ e : Fin 800000, 0 ≤ (v (ix1 e)).toInt ∧ (v (ix1 e)).toInt < 50000)
    (j : S800000.Idx) : inBounds (wrapCol v) j = 1#1 := by
  unfold inBounds
  refine AllOnes.reduce_andi_of_all _ _ _ _ rfl (fun i => ?_) j
  obtain ⟨e, z, rfl⟩ : ∃ (e : Fin 800000) (z : Fin 1), i = ix2 e z := ⟨i 0, i 1, eq_ix2 i⟩
  obtain rfl : z = 0 := Subsingleton.elim _ _
  show IntOp.andi (IntOp.cmpi .sge (wrapCol v (ix2 e 0)) 0#32) (IntOp.cmpi .sle (wrapCol v (ix2 e 0)) 49999#32) = 1#1
  rw [wrapCol_apply v e (hv e)]
  exact IntOp.andi_eq_one.mpr ⟨sge_zero _ (hv e).1, sle_last _ (hv e).2⟩

/-- THE TAKE at (e, k): the table's row `node (v e)`, column k. -/
theorem takeRows_apply (x : FVec F S50000x128 .f32) (v : IVec S800000 32)
    (hv : ∀ e : Fin 800000, 0 ≤ (v (ix1 e)).toInt ∧ (v (ix1 e)).toInt < 50000) (e : Fin 800000) (k : Fin 128) :
    takeRows x v (ix2 e k) = x (ix2 (node (v (ix1 e))) k) := by
  unfold takeRows
  rw [select_apply]
  have hm : broadcastInDim S800000x128 ![0] bcast_S800000_S800000x128_0 (inBounds (wrapCol v)) (ix2 e k) = 1#1 := by
    refine (broadcastInDim_apply _ bcast_S800000_S800000x128_0 _ _ (ix1 e) fun a => ?_).trans (inBounds_one v hv _)
    match a with
    | ⟨0, _⟩ =>
      show e.val = if 800000 = 1 then 0 else e.val
      rfl
  rw [hm]
  show Host.gather gather_S50000x128_S800000x1_S800000x128_1_0_n_n_0_1_1128 x (wrapCol v) (ix2 e k) = _
  have hg := RowGather.rowGather_apply (N := 50000) (C := 128) (n := 800000) (by decide)
    gather_S50000x128_S800000x1_S800000x128_1_0_n_n_0_1_1128_wf x (wrapCol v) e k
  refine hg.trans (congrArg (fun r => x (ix2 r k)) (Fin.ext ?_))
  show min (wrapCol v (ix2 e (0 : Fin 1))).toInt.toNat (50000 - 1) = min (v (ix1 e)).toInt.toNat 49999
  rw [wrapCol_apply v e (hv e)]

end Cert.KernelIdeal.Arrays

end
-- ==== Proof.EdgeSpec.lean ====
/-
  THE MESSAGE ARRAY, as one function of the program's arguments.

  For edge e the two gathered node rows are rows `node (idx (1, e))` (the target) and `node (idx (0, e))` (the source) of
  the node table; `rowsAt` is the [800000, 128] array of those rows for one row of the edge index array. The message at
  (e, j) is the gate of the two dense layers applied to [target row, source row, edge features] (`Cert.EdgeMessage.lin3`,
  `gate`). Both programs are shown to compute this array when every index word is a node number.
-/
import proofs.«411276_j4767413698834_1_alg».proof.Proof.Message
import proofs.«411276_j4767413698834_1_alg».proof.Proof.NodeIndex

noncomputable section

namespace Cert.EdgeMessage

open Idealize.ShloMosaic Idealize.ShloMosaic.ValueIdx Cert.NodeIndex

/-- The node rows named by row r of the edge index array: at (e, k), the table at (node (idx (r, e)), k). -/
def rowsAt (x : (⟨2, ![50000, 128]⟩ : Shape).Idx → EReal) (idx : (⟨2, ![2, 800000]⟩ : Shape).Idx → BitVec 32) (r : Fin 2) :
    (⟨2, ![800000, 128]⟩ : Shape).Idx → EReal :=
  fun i => x (ix2 (node (idx (ix2 r (i 0)))) (i 1))

/-- The message array: at (e, j), the gate of the two layers on [x[target e], x[source e], edge features e]. -/
def msg (x : (⟨2, ![50000, 128]⟩ : Shape).Idx → EReal) (idx : (⟨2, ![2, 800000]⟩ : Shape).Idx → BitVec 32)
    (ea : (⟨2, ![800000, 64]⟩ : Shape).Idx → EReal) (Wf : (⟨2, ![320, 128]⟩ : Shape).Idx → EReal)
    (bf : (⟨1, ![128]⟩ : Shape).Idx → EReal) (Ws : (⟨2, ![320, 128]⟩ : Shape).Idx → EReal)
    (bs : (⟨1, ![128]⟩ : Shape).Idx → EReal) : (⟨2, ![800000, 128]⟩ : Shape).Idx → EReal :=
  fun i => gate (lin3 (rowsAt x idx 1) (rowsAt x idx 0) ea Wf bf (i 0) (i 1))
    (lin3 (rowsAt x idx 1) (rowsAt x idx 0) ea Ws bs (i 0) (i 1))

end Cert.EdgeMessage

end
-- ==== Proof.KernelMessage.lean ====
/-
  THE KERNEL'S MESSAGE ARRAY is the specification `Cert.EdgeMessage.msg`, when every index word is a node number.

  The region's output is the gate of two dense layers over the arrays its windows stage (`Blocks.msgK`). Those arrays
  are the takes of node rows at the targets and at the sources — rows `node` of the index words, since no word is out
  of bounds and the fill value is never selected —, the edge features as launched, and for each layer the three row
  blocks 0.., 128.., 256.. of its weight matrix with its bias. Substituting them gives the three-group form of the
  specification, term by term.
-/
import proofs.«411276_j4767413698834_1_alg».proof.Proof.BlockIndex
import proofs.«411276_j4767413698834_1_alg».proof.Proof.TakeRead
import proofs.«411276_j4767413698834_1_alg».proof.Proof.EdgeSpec
import Idealize.ShloMosaic.Lib.ValueLayout

set_option maxRecDepth 16384

noncomputable section

namespace Cert.KernelIdeal.KMessage

open Cert.KernelIdeal Cert.KernelIdeal.Gen Cert.KernelIdeal.Blocks Cert.KernelIdeal.Arrays
open Idealize.ShloMosaic Idealize.ShloMosaic.TcCoe Idealize.SL.Sem
open Idealize.ShloMosaic.ValueIdx Cert.EdgeMessage Cert.NodeIndex

variable (m : (ℓ : Loc nD τ sig) → Buf (Elt Ideal) ℓ)

/-- One dense layer over the staged arrays is the three-group form over the arguments, for a weight matrix W whose
    row blocks are the staged weight blocks. -/
theorem layer_eq (c : Dev nD)
    (hidx : ∀ i : S2x800000.Idx, 0 ≤ (m ((c : Thread nD τ).loc main_arg1) i).toInt
      ∧ (m ((c : Thread nD τ).loc main_arg1) i).toInt < 50000)
    (W : S320x128.Idx → EReal) (b : S128.Idx → EReal) (e : Fin 800000) (j : Fin 128) :
    linK (V m c main_v4) (V m c main_v5) (V m c main_arg2)
        (extractStridedSlice S128x128 ![0, 0] W slices_S320x128_S128x128_0_0)
        (extractStridedSlice S128x128 ![128, 0] W slices_S320x128_S128x128_128_0)
        (extractStridedSlice S64x128 ![256, 0] W slices_S320x128_S64x128_256_0) b e j
      = lin3 (rowsAt (m ((c : Thread nD τ).loc main_arg0)) (m ((c : Thread nD τ).loc main_arg1)) 1)
          (rowsAt (m ((c : Thread nD τ).loc main_arg0)) (m ((c : Thread nD τ).loc main_arg1)) 0)
          (m ((c : Thread nD τ).loc main_arg2)) W b e j := by
  have hd : ∀ e : Fin 800000, 0 ≤ (dstRow (m ((c : Thread nD τ).loc main_arg1)) (ix1 e)).toInt
      ∧ (dstRow (m ((c : Thread nD τ).loc main_arg1)) (ix1 e)).toInt < 50000 := fun e => by
    rw [dstRow_apply]; exact hidx _
  have hs : ∀ e : Fin 800000, 0 ≤ (srcRow (m ((c : Thread nD τ).loc main_arg1)) (ix1 e)).toInt
      ∧ (srcRow (m ((c : Thread nD τ).loc main_arg1)) (ix1 e)).toInt < 50000 := fun e => by
    rw [srcRow_apply]; exact hidx _
  unfold linK lin3
  rw [V_xdst, V_xsrc, V_main_arg2]
  refine congrArg₂ (· + ·) (congrArg₂ (· + ·) (congrArg₂ (· + ·) ?_ ?_) ?_) rfl
  · refine Finset.sum_congr rfl fun k _ => ?_
    rw [takeRows_apply _ _ hd e k, dstRow_apply, slice2_axis0_apply 0 W _ k j (⟨k.val, by omega⟩ : Fin 320) (by simp)]
    rfl
  · refine Finset.sum_congr rfl fun k _ => ?_
    rw [takeRows_apply _ _ hs e k, srcRow_apply, slice2_axis0_apply 128 W _ k j (⟨128 + k.val, by omega⟩ : Fin 320) rfl]
    rfl
  · refine Finset.sum_congr rfl fun k _ => ?_
    rw [slice2_axis0_apply 256 W _ k j (⟨256 + k.val, by omega⟩ : Fin 320) rfl]

/-- THE KERNEL'S MESSAGE ARRAY is the specification. -/
theorem msgK_eq (c : Dev nD)
    (hidx : ∀ i : S2x800000.Idx, 0 ≤ (m ((c : Thread nD τ).loc main_arg1) i).toInt
      ∧ (m ((c : Thread nD τ).loc main_arg1) i).toInt < 50000) :
    msgK m c = msg (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  funext i
  obtain ⟨e, j, rfl⟩ : ∃ (e : Fin 800000) (j : Fin 128), i = ix2 e j := ⟨i 0, i 1, eq_ix2 i⟩
  unfold msgK msg
  rw [V_wfd, V_wfs, V_wfe, V_wsd, V_wss, V_wse, V_main_arg4, V_main_arg6]
  show gate (linK _ _ _ _ _ _ _ e j) (linK _ _ _ _ _ _ _ e j) = gate (lin3 _ _ _ _ _ e j) (lin3 _ _ _ _ _ e j)
  rw [layer_eq m c hidx, layer_eq m c hidx]

end Cert.KernelIdeal.KMessage

end
-- ==== Proof.KernelTail.lean ====
/-
  AFTER THE REGION: the scatter-add of the messages to their target nodes, the residual, and the ReLU.

  The program's last lines are  relu(segment_sum(msg, target) + x):  a scatter-add of the message array's rows into a
  zero [50000, 128] array at the target words (row 1 of the edge index array, kept as an [800000, 1] column), plus the
  node table, and the maximum with zero. `tail` is that, as one function of the node table, the target words and the
  message array. The lines run on what the region leaves: the output window's array at its final contents, every other
  buffer as the region found it — so the program's result is `tail` of the arguments and the region's output array.
-/
import proofs.«411276_j4767413698834_1_alg».proof.Proof.Gen.KernelIdeal.Frame
import proofs.«411276_j4767413698834_1_alg».proof.Proof.KernelArrays
import Idealize.ShloMosaic.Lib.StableHlo.Run

set_option maxRecDepth 16384

noncomputable section

namespace Cert.KernelIdeal.Tail

open Cert.KernelIdeal Cert.KernelIdeal.Gen Cert.KernelIdeal.Arrays
open Idealize.ShloMosaic Idealize.ShloMosaic.TcCoe Idealize.ShloMosaic.Tactic Idealize.SL.Sem
open Idealize.ShloMosaic.Pipeline (Dat)

variable {F : FTy → Type} [FloatOps F]

/-- relu(segment_sum(msg, target) + x). -/
def tail (x : FVec F S50000x128 .f32) (dst : IVec S800000 32) (msg : FVec F S800000x128 .f32) : FVec F S50000x128 .f32 :=
  maximumf
    (addf
      (Host.scatterAdd scatter_S50000x128_S800000x1_S800000x128_1_0_0_1
        (broadcastInDim S50000x128 ![] bcast_S_S50000x128 (constant S_ .f32 0x00000000#32))
        (broadcastInDim S800000x1 ![0] bcast_S800000_S800000x1_0 dst) msg)
      x)
    (broadcastInDim S50000x128 ![] bcast_S_S50000x128 (constant S_ .f32 0x00000000#32))

variable (m : (ℓ : Loc nD τ sig) → Buf (Elt F) ℓ)

/-- The region finds the target words in `main_v3`: row 1 of the edge index array. -/
theorem V_dst (c : Dev nD) : (V m c main_v3 : S800000.Idx → BitVec 32) = dstRow (m ((c : Thread nD τ).loc main_arg1)) := by
  dsimp only [V, V0]
  simp only [hostOps0, hostOps0_1, hostOps0_2, hostOps0_3, List.flatten_cons, List.flatten_nil, List.append_nil, List.cons_append, List.nil_append]
  after_results
  rfl

/-- THE PROGRAM'S RESULT is the tail of the arguments and the region's output array. -/
theorem result_eq (dats : (p : Fin 1) → (c : Dev nD) → Dat τ (Elt F) Unit ℕ (UR sig nD τ) ℕ (cfgs p) c) (c : Dev nD) :
    (Pipeline.afterTail₀ cfgs dats 0 (V0 m) [hostOps1, hostOps1_1] c main_v17 : S50000x128.Idx → Elt F .f32)
      = tail (m ((c : Thread nD τ).loc main_arg0)) (dstRow (m ((c : Thread nD τ).loc main_arg1)))
          ((dats 0 c).arrAt 11 cfg0.N) := by
  have h12 : Pipeline.withArrays (cfgs 0).spec c (V0 m c) (fun w => (dats 0 c).arrAt w (cfgs 0).N) (Proc.devRef .tc main_v12)
      = (dats 0 c).arrAt 11 (cfgs 0).N := Pipeline.withArrays_arr spec0 launch0.win.arr_inj c _ _ 11
  have h0 : Pipeline.withArrays (cfgs 0).spec c (V0 m c) (fun w => (dats 0 c).arrAt w (cfgs 0).N) (Proc.devRef .tc main_arg0)
      = m ((c : Thread nD τ).loc main_arg0) :=
    (Pipeline.withArrays_of_ne spec0 c (V0 m c) _ main_arg0
      (by exact (by decide : ∀ w, Pipeline.arrRef spec0 w ≠ main_arg0))).trans (V_main_arg0 m c)
  have h3 : Pipeline.withArrays (cfgs 0).spec c (V0 m c) (fun w => (dats 0 c).arrAt w (cfgs 0).N) (Proc.devRef .tc main_v3)
      = dstRow (m ((c : Thread nD τ).loc main_arg1)) :=
    (Pipeline.withArrays_of_ne spec0 c (V0 m c) _ main_v3
      (by exact (by decide : ∀ w, Pipeline.arrRef spec0 w ≠ main_v3))).trans (V_dst m c)
  unfold Pipeline.afterTail₀
  simp only [hostOps1, hostOps1_1, List.flatten_cons, List.flatten_nil, List.append_nil, List.cons_append, List.nil_append]
  after_results
  simp only [cast_eq]
  rw [h12, h0, h3]
  rfl

end Cert.KernelIdeal.Tail

end
-- ==== Proof.KernelRun.lean ====
/-
  THE KERNEL PROGRAM'S RUN, with its result named.

  Every weakly fair execution of the idealized kernel program terminates without a fault (the generated frame run).
  Its post gives each window's array at the contents the proof data computes and every other buffer as the lines after
  the region leave it. Read at the result buffer that is the tail — scatter-add to the target nodes, residual, ReLU — of
  the region's output array; the output array is the message array over the staged arrays (the 250 blocks tile it);
  and, every index word being a node number, that is the specification's message array over the arguments. The
  argument arrays end as launched, read off the same post as the generated frame does.
-/
import proofs.«411276_j4767413698834_1_alg».proof.Proof.Blocks
import proofs.«411276_j4767413698834_1_alg».proof.Proof.KernelMessage
import proofs.«411276_j4767413698834_1_alg».proof.Proof.KernelTail

set_option maxRecDepth 16384

noncomputable section

namespace Cert.KernelIdeal.Run

open Cert.KernelIdeal Cert.KernelIdeal.Gen Cert.KernelIdeal.Arrays
open Idealize.ShloMosaic Idealize.ShloMosaic.TcCoe Idealize.SL.Sem Cert.EdgeMessage

variable (m : (ℓ : Loc nD τ sig) → Buf (Elt Ideal) ℓ) (ρ : Dev nD → PrngReg)

/-- The program's result as a function of its arguments: the tail of the specification's message array. -/
def result (c : Dev nD) : S50000x128.Idx → EReal :=
  Tail.tail (F := Ideal) (m ((c : Thread nD τ).loc main_arg0)) (dstRow (m ((c : Thread nD τ).loc main_arg1)))
    (msg (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)))

theorem run
    (hidx : ∀ (c : Dev nD) (i : S2x800000.Idx), 0 ≤ (m ((c : Thread nD τ).loc main_arg1) i).toInt
      ∧ (m ((c : Thread nD τ).loc main_arg1) i).toInt < 50000) :
    θ_run defs (onTc (τ := τ) (main (F := Ideal))) ⟨m, fun _ => 0, ρ⟩ (fun r => ∀ c : Dev nD,
      r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v17 (Pipeline.mem_restRefs_of main_v17 (by decide) (by decide))).trans
        ((Tail.result_eq m (dats m) c).trans (by
          unfold result
          rw [Blocks.final m c, KMessage.msgK_eq m c (hidx c)])),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 6).trans (((dats m 0 c).arrAt_in 6 rfl _).trans ((A_eq m c 6).trans (V_main_arg4 m c))),
      (((h c).2 main_arg5 (Pipeline.mem_restRefs_of main_arg5 (by decide) (by decide))).trans (W_main_arg5 m (dats m) c)),
      ((h c).1 10).trans (((dats m 0 c).arrAt_in 10 rfl _).trans ((A_eq m c 10).trans (V_main_arg6 m c)))⟩)
    (run_main m ρ)

end Cert.KernelIdeal.Run

end
-- ==== Proof.LibConcatCols3.lean ====
/-
  GENERAL LEMMA. THREE BLOCKS OF COLUMNS SIDE BY SIDE, read at an entry.

  jnp.concatenate([x0, x1, x2], axis=-1) of rank-2 arrays [n, a], [n, b], [n, c] is the [n, T] array, T = a + b + c,
  whose row e is x0's row e, then x1's, then x2's. Read at (e, j): for j < a it is x0 (e, j); for j = a + k, k < b, it is
  x1 (e, k); for j = a + b + k, k < c, it is x2 (e, k). Each is the library's reading of a concatenation at the piece
  that holds the index, with the extents before it added up.
-/
import Idealize.ShloMosaic.Lib.Pipeline.Value
import Idealize.ShloMosaic.Lib.ValueIdx

noncomputable section

namespace Idealize.ShloMosaic.ConcatCols3

open Idealize.ShloMosaic Idealize.ShloMosaic.ValueIdx

variable {α : Type} {n a b c T : Nat}

/-- The first block: column j < a. -/
theorem left (x₀ : (⟨2, ![n, a]⟩ : Shape).Idx → α) (x₁ : (⟨2, ![n, b]⟩ : Shape).Idx → α) (x₂ : (⟨2, ![n, c]⟩ : Shape).Idx → α)
    (h : Shape.Concatenates [(⟨2, ![n, a]⟩ : Shape), ⟨2, ![n, b]⟩, ⟨2, ![n, c]⟩] ⟨2, ![n, T]⟩ 1)
    (e : Fin n) (k : Fin a) (j : Fin T) (hj : j.val = k.val) :
    concatenate ⟨2, ![n, T]⟩ 1 [⟨⟨2, ![n, a]⟩, x₀⟩, ⟨⟨2, ![n, b]⟩, x₁⟩, ⟨⟨2, ![n, c]⟩, x₂⟩] h (ix2 e j) = x₀ (ix2 e k) := by
  refine concatenate_apply_piece (t := ⟨2, ![n, T]⟩) (1 : Fin 2) [⟨⟨2, ![n, a]⟩, x₀⟩, ⟨⟨2, ![n, b]⟩, x₁⟩, ⟨⟨2, ![n, c]⟩, x₂⟩] h (ix2 e j) 0 (by simp) _ x₀ rfl rfl 0 rfl (ix2 e k) (fun bb hb => ?_) ?_
  · match bb with
    | ⟨0, _⟩ => rfl
    | ⟨1, _⟩ => exact absurd rfl hb
  · show 0 + k.val = j.val
    omega

/-- The second block: column a + k, k < b. -/
theorem mid (x₀ : (⟨2, ![n, a]⟩ : Shape).Idx → α) (x₁ : (⟨2, ![n, b]⟩ : Shape).Idx → α) (x₂ : (⟨2, ![n, c]⟩ : Shape).Idx → α)
    (h : Shape.Concatenates [(⟨2, ![n, a]⟩ : Shape), ⟨2, ![n, b]⟩, ⟨2, ![n, c]⟩] ⟨2, ![n, T]⟩ 1)
    (e : Fin n) (k : Fin b) (j : Fin T) (hj : j.val = a + k.val) :
    concatenate ⟨2, ![n, T]⟩ 1 [⟨⟨2, ![n, a]⟩, x₀⟩, ⟨⟨2, ![n, b]⟩, x₁⟩, ⟨⟨2, ![n, c]⟩, x₂⟩] h (ix2 e j) = x₁ (ix2 e k) := by
  refine concatenate_apply_piece (t := ⟨2, ![n, T]⟩) (1 : Fin 2) [⟨⟨2, ![n, a]⟩, x₀⟩, ⟨⟨2, ![n, b]⟩, x₁⟩, ⟨⟨2, ![n, c]⟩, x₂⟩] h (ix2 e j) 1 (by simp) _ x₁ rfl rfl a (by simp) (ix2 e k) (fun bb hb => ?_) ?_
  · match bb with
    | ⟨0, _⟩ => rfl
    | ⟨1, _⟩ => exact absurd rfl hb
  · show a + k.val = j.val
    omega

/-- The third block: column a + b + k, k < c. -/
theorem right (x₀ : (⟨2, ![n, a]⟩ : Shape).Idx → α) (x₁ : (⟨2, ![n, b]⟩ : Shape).Idx → α) (x₂ : (⟨2, ![n, c]⟩ : Shape).Idx → α)
    (h : Shape.Concatenates [(⟨2, ![n, a]⟩ : Shape), ⟨2, ![n, b]⟩, ⟨2, ![n, c]⟩] ⟨2, ![n, T]⟩ 1)
    (e : Fin n) (k : Fin c) (j : Fin T) (hj : j.val = a + b + k.val) :
    concatenate ⟨2, ![n, T]⟩ 1 [⟨⟨2, ![n, a]⟩, x₀⟩, ⟨⟨2, ![n, b]⟩, x₁⟩, ⟨⟨2, ![n, c]⟩, x₂⟩] h (ix2 e j) = x₂ (ix2 e k) := by
  refine concatenate_apply_piece (t := ⟨2, ![n, T]⟩) (1 : Fin 2) [⟨⟨2, ![n, a]⟩, x₀⟩, ⟨⟨2, ![n, b]⟩, x₁⟩, ⟨⟨2, ![n, c]⟩, x₂⟩] h (ix2 e j) 2 (by simp) _ x₂ rfl rfl (a + b) (by simp) (ix2 e k) (fun bb hb => ?_) ?_
  · match bb with
    | ⟨0, _⟩ => rfl
    | ⟨1, _⟩ => exact absurd rfl hb
  · show a + b + k.val = j.val
    omega

end Idealize.ShloMosaic.ConcatCols3

end
-- ==== Proof.RefMessage.lean ====
/-
  THE REFERENCE'S MESSAGE ARRAY is the specification `Cert.EdgeMessage.msg`, when every index word is a node number.

  The reference gathers x[target] and x[source] (negatives wrapped, then a clamped row gather: rows `node` of the
  words), lays them beside the edge features as one [800000, 320] array, and applies each dense layer as ONE product
  with the whole [320, 128] weight matrix plus the bias row. Read at (e, j) the product is a sum over 320 columns, which
  splits into the three column ranges of the concatenation: the three-group form. Its sigmoid is spelled
  1 / (1 + exp(-z)), which is the logistic function on the extended reals by definition, and its softplus is the same
  expression as the specification's, under a NaN test that no extended real passes.
-/
import proofs.«411276_j4767413698834_1_alg».proof.Proof.Gen.ReferenceIdeal.Read
import proofs.«411276_j4767413698834_1_alg».proof.Proof.EdgeSpec
import proofs.«411276_j4767413698834_1_alg».proof.Proof.LibRowGather
import proofs.«411276_j4767413698834_1_alg».proof.Proof.LibIndexWrap
import proofs.«411276_j4767413698834_1_alg».proof.Proof.LibDotAt
import proofs.«411276_j4767413698834_1_alg».proof.Proof.LibConcatCols3
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.Message

open Cert.ReferenceIdeal Cert.ReferenceIdeal.Gen Cert.ReferenceIdeal.Read
open Idealize.ShloMosaic Idealize.ShloMosaic.ValueIdx Cert.EdgeMessage Cert.NodeIndex

variable (x0 : S50000x128.Idx → EReal) (x1 : S2x800000.Idx → BitVec 32) (x2 : S800000x64.Idx → EReal)
  (x3 : S320x128.Idx → EReal) (x4 : S128.Idx → EReal) (x5 : S320x128.Idx → EReal) (x6 : S128.Idx → EReal)

/-! ## The index columns -/

theorem dst_word (e : Fin 800000) : val_main_v3 (F := Ideal) x1 (ix1 e) = x1 (ix2 (1 : Fin 2) e) := by
  unfold val_main_v3 val_main_v2
  rw [shapeCast_1a_a_apply]
  exact slice2_axis0_apply 1 x1 _ (0 : Fin 1) e (1 : Fin 2) rfl

theorem src_word (e : Fin 800000) : val_main_v1 (F := Ideal) x1 (ix1 e) = x1 (ix2 (0 : Fin 2) e) := by
  unfold val_main_v1 val_main_v0
  rw [shapeCast_1a_a_apply]
  exact slice2_axis0_apply 0 x1 _ (0 : Fin 1) e (0 : Fin 2) rfl

variable (hidx : ∀ i : S2x800000.Idx, 0 ≤ (x1 i).toInt ∧ (x1 i).toInt < 50000)

include hidx in
theorem dst_col (e : Fin 800000) : val_main_v9 (F := Ideal) x1 (ix2 e (0 : Fin 1)) = x1 (ix2 (1 : Fin 2) e) := by
  unfold val_main_v9 val_main_v8 val_main_v7 val_main_v6 val_main_v5 val_main_v4 val_main_c val_main_c_0
  rw [IndexWrap.column_apply, IndexWrap.wrapped_apply, dst_word, wrap_in_range _ (hidx _)]

include hidx in
theorem src_col (e : Fin 800000) : val_main_v16 (F := Ideal) x1 (ix2 e (0 : Fin 1)) = x1 (ix2 (0 : Fin 2) e) := by
  unfold val_main_v16 val_main_v15 val_main_v14 val_main_v13 val_main_v12 val_main_v11 val_main_c_1 val_main_c_2
  rw [IndexWrap.column_apply, IndexWrap.wrapped_apply, src_word, wrap_in_range _ (hidx _)]

/-! ## The gathers -/

include hidx in
theorem gather_dst (e : Fin 800000) (k : Fin 128) :
    val_main_v10 (F := Ideal) x0 x1 (ix2 e k) = rowsAt x0 x1 1 (ix2 e k) := by
  unfold val_main_v10
  refine (RowGather.rowGather_apply (N := 50000) (C := 128) (n := 800000) (by decide)
    gather_S50000x128_S800000x1_S800000x128_1_0_n_n_0_1_1128_wf x0 (val_main_v9 (F := Ideal) x1) e k).trans
    (congrArg (fun r => x0 (ix2 r k)) (Fin.ext ?_))
  show min (val_main_v9 (F := Ideal) x1 (ix2 e (0 : Fin 1))).toInt.toNat (50000 - 1) = min (x1 (ix2 (1 : Fin 2) e)).toInt.toNat 49999
  rw [dst_col x1 hidx e]

include hidx in
theorem gather_src (e : Fin 800000) (k : Fin 128) :
    val_main_v17 (F := Ideal) x0 x1 (ix2 e k) = rowsAt x0 x1 0 (ix2 e k) := by
  unfold val_main_v17
  refine (RowGather.rowGather_apply (N := 50000) (C := 128) (n := 800000) (by decide)
    gather_S50000x128_S800000x1_S800000x128_1_0_n_n_0_1_1128_wf x0 (val_main_v16 (F := Ideal) x1) e k).trans
    (congrArg (fun r => x0 (ix2 r k)) (Fin.ext ?_))
  show min (val_main_v16 (F := Ideal) x1 (ix2 e (0 : Fin 1))).toInt.toNat (50000 - 1) = min (x1 (ix2 (0 : Fin 2) e)).toInt.toNat 49999
  rw [src_col x1 hidx e]

/-! ## The concatenated row, and a dense layer over it -/

include hidx in
theorem cat_dst (e : Fin 800000) (k : Fin 128) :
    val_main_v18 (F := Ideal) x0 x1 x2 (ix2 e (⟨k.val, by omega⟩ : Fin 320)) = rowsAt x0 x1 1 (ix2 e k) := by
  unfold val_main_v18
  exact (ConcatCols3.left (a := 128) (b := 128) (c := 64) _ _ _
    concatenates_S800000x128_S800000x128_S800000x64_S800000x320_d1 e k _ rfl).trans (gather_dst x0 x1 hidx e k)

include hidx in
theorem cat_src (e : Fin 800000) (k : Fin 128) :
    val_main_v18 (F := Ideal) x0 x1 x2 (ix2 e (⟨128 + k.val, by omega⟩ : Fin 320)) = rowsAt x0 x1 0 (ix2 e k) := by
  unfold val_main_v18
  exact (ConcatCols3.mid (a := 128) (b := 128) (c := 64) _ _ _
    concatenates_S800000x128_S800000x128_S800000x64_S800000x320_d1 e k _ rfl).trans (gather_src x0 x1 hidx e k)

theorem cat_edge (e : Fin 800000) (k : Fin 64) :
    val_main_v18 (F := Ideal) x0 x1 x2 (ix2 e (⟨256 + k.val, by omega⟩ : Fin 320)) = x2 (ix2 e k) := by
  unfold val_main_v18
  exact ConcatCols3.right (a := 128) (b := 128) (c := 64) _ _ _
    concatenates_S800000x128_S800000x128_S800000x64_S800000x320_d1 e k _ rfl

include hidx in
/-- The 320-term product of the concatenated row with a weight matrix, split into the three feature groups. -/
theorem dot_rows (W : S320x128.Idx → EReal) (e : Fin 800000) (j : Fin 128) :
    ∑ k : Fin 320, val_main_v18 (F := Ideal) x0 x1 x2 (ix2 e k) * W (ix2 k j)
      = (∑ k : Fin 128, rowsAt x0 x1 1 (ix2 e k) * W (ix2 (⟨k.val, by omega⟩ : Fin 320) j)
          + ∑ k : Fin 128, rowsAt x0 x1 0 (ix2 e k) * W (ix2 (⟨128 + k.val, by omega⟩ : Fin 320) j))
        + ∑ k : Fin 64, x2 (ix2 e k) * W (ix2 (⟨256 + k.val, by omega⟩ : Fin 320) j) := by
  refine (sum_split fun k => val_main_v18 (F := Ideal) x0 x1 x2 (ix2 e k) * W (ix2 k j)).trans ?_
  congr 1
  · congr 1
    · exact Finset.sum_congr rfl fun k _ => by rw [cat_dst x0 x1 x2 hidx e k]
    · exact Finset.sum_congr rfl fun k _ => by rw [cat_src x0 x1 x2 hidx e k]
  · exact Finset.sum_congr rfl fun k _ => by rw [cat_edge x0 x1 x2 e k]

/-- The host's product with the whole weight matrix, at (e, j): the sum over the 320 columns. -/
theorem dot_apply (y : S800000x320.Idx → EReal) (W : S320x128.Idx → EReal) (e : Fin 800000) (j : Fin 128) :
    Host.dotGeneral (F := Ideal) (φ₁ := .f32) (φ₂ := .f32) dot_S800000x320_S320x128_S800000x128_1_0_0_1_n_n none y W (ix2 e j)
      = ∑ k : Fin 320, y (ix2 e k) * W (ix2 k j) :=
  DotAt.dotGeneral_plain dot_S800000x320_S320x128_S800000x128_1_0_0_1_n_n rfl rfl rfl rfl rfl rfl rfl rfl none y W e j

include hidx in
theorem layer1 (e : Fin 800000) (j : Fin 128) :
    val_main_v22 (F := Ideal) x0 x1 x2 x3 x4 (ix2 e j) = lin3 (rowsAt x0 x1 1) (rowsAt x0 x1 0) x2 x3 x4 e j := by
  rw [val_main_v22_apply]
  show val_main_v19 (F := Ideal) x0 x1 x2 x3 (ix2 e j) + val_main_v21 (F := Ideal) x4 (ix2 e j) = _
  unfold val_main_v19 val_main_v21 val_main_v20 lin3
  rw [dot_apply, dot_rows x0 x1 x2 hidx x3 e j, IndexWrap.row_bcast_apply]

include hidx in
theorem layer2 (e : Fin 800000) (j : Fin 128) :
    val_main_v32 (F := Ideal) x0 x1 x2 x5 x6 (ix2 e j) = lin3 (rowsAt x0 x1 1) (rowsAt x0 x1 0) x2 x5 x6 e j := by
  rw [val_main_v32_apply]
  show val_main_v29 (F := Ideal) x0 x1 x2 x5 (ix2 e j) + val_main_v31 (F := Ideal) x6 (ix2 e j) = _
  unfold val_main_v29 val_main_v31 val_main_v30 lin3
  rw [dot_apply, dot_rows x0 x1 x2 hidx x5 e j, IndexWrap.row_bcast_apply]

/-! ## The gate -/

theorem gate_apply (i : S800000x128.Idx) :
    val_main_v34 (F := Ideal) x0 x1 x2 x3 x4 x5 x6 i
      = gate (val_main_v22 (F := Ideal) x0 x1 x2 x3 x4 i) (val_main_v32 (F := Ideal) x0 x1 x2 x5 x6 i) := by
  unfold gate softplus
  simp only [val_main_v34_apply, val_main_v33_apply, val_main_v28_apply, val_main_v27_apply, val_main_v26_apply,
    val_main_v25_apply, val_main_v24_apply, val_main_v23_apply, val_main_cst_apply, val_main_cst_3_apply,
    val_main_call0_v4_apply, val_main_call0_v6_apply, val_main_call0_v11_apply, val_main_call0_v1_apply,
    val_main_call0_v10_apply, val_main_call0_v9_apply, val_main_call0_v8_apply, val_main_call0_v7_apply,
    val_main_call0_v3_apply, val_main_call0_v0_apply, val_main_call0_v2_apply, val_main_call0_v5_apply,
    val_main_call0_cst_apply, Ideal.mulf_def, Ideal.addf_def, Ideal.subf_def, Ideal.maximumf_def, Ideal.hostDivf_def,
    Ideal.hostNegf_def, Ideal.negf_def, Ideal.hostAbsf_def, Ideal.absf_def, Ideal.hostUnary_exp_def,
    Ideal.hostUnary_log1p_def, Ideal.cmpf_def, cmp_une_self, ValueIdx.select_zero, Ideal.ofBits_def,
    Ideal.ofBits_zero_f32, ofBits_one, Ideal.logistic]

include hidx in
/-- THE REFERENCE'S MESSAGE ARRAY is the specification. -/
theorem message_eq : val_main_v34 (F := Ideal) x0 x1 x2 x3 x4 x5 x6 = msg x0 x1 x2 x3 x4 x5 x6 := by
  funext i
  obtain ⟨e, j, rfl⟩ : ∃ (e : Fin 800000) (j : Fin 128), i = ix2 e j := ⟨i 0, i 1, eq_ix2 i⟩
  rw [gate_apply, layer1 x0 x1 x2 x3 x4 hidx e j, layer2 x0 x1 x2 x5 x6 hidx e j]
  rfl

end Cert.ReferenceIdeal.Message

end
-- ==== Proof.RefTail.lean ====
/-
  THE REFERENCE'S RESULT is the same tail of its message array.

  After the message array the reference runs  relu(segment_sum(msg, target) + x):  the scatter-add into a zero array at
  the target words (row 1 of the edge index array as an [800000, 1] column), the node table added, the maximum with
  zero — the very operations of the very operands that end the kernel program (`Cert.KernelIdeal.Tail.tail`). Stage by
  stage the two terms are one.
-/
import proofs.«411276_j4767413698834_1_alg».proof.Proof.Gen.ReferenceIdeal.Read
import proofs.«411276_j4767413698834_1_alg».proof.Proof.KernelTail

set_option maxRecDepth 16384

noncomputable section

namespace Cert.ReferenceIdeal.RefTail

open Idealize.ShloMosaic Cert.ReferenceIdeal.Read

/-- The reference's last stage is the tail of its message stage. -/
theorem result_eq (a0 : Cert.ReferenceIdeal.S50000x128.Idx → EReal) (a1 : Cert.ReferenceIdeal.S2x800000.Idx → BitVec 32)
    (a2 : Cert.ReferenceIdeal.S800000x64.Idx → EReal) (a3 : Cert.ReferenceIdeal.S320x128.Idx → EReal)
    (a4 : Cert.ReferenceIdeal.S128.Idx → EReal) (a5 : Cert.ReferenceIdeal.S320x128.Idx → EReal)
    (a6 : Cert.ReferenceIdeal.S128.Idx → EReal) :
    val_main_v39 (F := Ideal) a0 a1 a2 a3 a4 a5 a6
      = Cert.KernelIdeal.Tail.tail (F := Ideal) a0 (Cert.KernelIdeal.Arrays.dstRow a1)
          (val_main_v34 (F := Ideal) a0 a1 a2 a3 a4 a5 a6) := by
  unfold val_main_v39 val_main_v38 val_main_v37 val_main_v36 val_main_v35 val_main_call1_v0 val_main_call1_cst
    val_main_cst_4 val_main_v3 val_main_v2 Cert.KernelIdeal.Tail.tail Cert.KernelIdeal.Arrays.dstRow
  rfl

end Cert.ReferenceIdeal.RefTail

end
-- ==== Proof.lean ====
/-
  A gated graph-convolution layer: for every edge e = (source, target) the message
      sigmoid(z(e) W_f + b_f) * softplus(z(e) W_s + b_s),   z(e) = [x[target], x[source], edge_attr(e)]  (320 features),
  summed into its target node, plus the node table, through a ReLU.

  The kernel program takes the node rows with jnp.take (out-of-range indices would read a fill value), runs the two
  dense layers and the gate in a Pallas region over 250 blocks of 3200 edges — each layer as three products with the row
  blocks 0..127, 128..255, 256..319 of its weight matrix, in sixteen-bit inputs —, and finishes on the host. The
  reference indexes the node table directly (out-of-range indices would be clamped), concatenates, and applies each layer
  as one product. The precondition asks, beside finite floats, that every edge index is a node number, 0 <= idx < 50000:
  there both gathers read the same rows, so the two message arrays are one array (`Cert.EdgeMessage.msg`): a 320-term sum
  is its three groups' sums (addition of extended reals is commutative and associative; no finiteness is used), a
  change of float format is the identity, and the logistic function is 1 / (1 + exp(-z)) by definition. The scatter-add,
  the residual and the ReLU are the same operations of the same operands in both programs.

  The frames of the two kernel programs are the generated ones; the reference's frame is its generated run with the
  result dropped; the idealization rewrote nothing, so `preserves` is trivial.
-/
import proofs.«411276_j4767413698834_1_alg».proof.Defs
import proofs.«411276_j4767413698834_1_alg».proof.Proof.Gen.Kernel
import proofs.«411276_j4767413698834_1_alg».proof.Proof.Gen.Kernel.Skeleton
import proofs.«411276_j4767413698834_1_alg».proof.Proof.Gen.Kernel.Launch
import proofs.«411276_j4767413698834_1_alg».proof.Proof.Gen.Kernel.Points
import proofs.«411276_j4767413698834_1_alg».proof.Proof.Gen.Kernel.Frame
import proofs.«411276_j4767413698834_1_alg».proof.Proof.Gen.KernelIdeal
import proofs.«411276_j4767413698834_1_alg».proof.Proof.Gen.KernelIdeal.Skeleton
import proofs.«411276_j4767413698834_1_alg».proof.Proof.Gen.KernelIdeal.Launch
import proofs.«411276_j4767413698834_1_alg».proof.Proof.Gen.KernelIdeal.Points
import proofs.«411276_j4767413698834_1_alg».proof.Proof.Gen.KernelIdeal.Frame
import proofs.«411276_j4767413698834_1_alg».proof.Proof.Gen.ReferenceIdeal
import proofs.«411276_j4767413698834_1_alg».proof.Proof.Gen.ReferenceIdeal.Run
import proofs.«411276_j4767413698834_1_alg».proof.Proof.Gen.ReferenceIdeal.Read
import proofs.«411276_j4767413698834_1_alg».proof.Proof.Gen.Pre_finite_inputs
import proofs.«411276_j4767413698834_1_alg».proof.Proof.IndexRange
import proofs.«411276_j4767413698834_1_alg».proof.Proof.KernelRun
import proofs.«411276_j4767413698834_1_alg».proof.Proof.RefMessage
import proofs.«411276_j4767413698834_1_alg».proof.Proof.RefTail
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end, from memories that agree on the arguments, with the tail of the one message array. -/
theorem algebraic : Cert.algebraic_KernelIdeal_ReferenceIdeal := by
  intro m ρ m' ρ' hpre hagree
  -- the precondition's last conjunct: every edge index word is a node number
  have hidx : ∀ (c : Dev Cert.KernelIdeal.nD) (i : Cert.KernelIdeal.S2x800000.Idx),
      0 ≤ (m ((c.tc : Thread Cert.KernelIdeal.nD Cert.KernelIdeal.τ).loc Cert.KernelIdeal.main_arg1) i).toInt
      ∧ (m ((c.tc : Thread Cert.KernelIdeal.nD Cert.KernelIdeal.τ).loc Cert.KernelIdeal.main_arg1) i).toInt < 50000 :=
    fun c i => Cert.IndexRange.in_range _ _ _ _ _ _ _ (hpre c) i
  refine ⟨Cert.KernelIdeal.Run.result m, Cert.KernelIdeal.Run.run m ρ hidx, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v39_eq, e0, e1, e2, e3, e4, e5, e6, Cert.ReferenceIdeal.RefTail.result_eq,
    Cert.ReferenceIdeal.Message.message_eq _ _ _ _ _ _ _ (hidx c)]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
